-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S2x200000 : Shape := ⟨2, ![2, 200000]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩
abbrev S1x800000 : Shape := ⟨2, ![1, 800000]⟩
abbrev S800000 : Shape := ⟨1, ![800000]⟩
abbrev S1x200000 : Shape := ⟨2, ![1, 200000]⟩
abbrev S200000 : Shape := ⟨1, ![200000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  reducesTo_S200000_S_d0 : S200000.ReducesTo [0] S_
  slices_S2x200000_S1x200000_1_0 : S2x200000.Slices ![1, 0] S1x200000

variable [Facts]

def fn_part4 {F : FTy → Type} [FloatOps F] (main_v66 : IVec S_ 1) (main_v68 : IVec S200000 32) (main_c_24 : IVec S_ 32) : IVec S_ 1 :=
  let main_v69 : IVec S200000 32 := broadcastInDim S200000 ![] bcast_S_S200000 main_c_24
  let main_v70 : IVec S200000 1 := cmpi .sge main_v68 main_v69
  let main_c_25 : IVec S_ 32 := constantI S_ 32 50000#32
  let main_v71 : IVec S200000 32 := broadcastInDim S200000 ![] bcast_S_S200000 main_c_25
  let main_v72 : IVec S200000 1 := cmpi .slt main_v68 main_v71
  let main_v73 : IVec S200000 1 := andi main_v70 main_v72
  let main_c_26 : IVec S_ 1 := constantI S_ 1 1#1
  let main_v74 : IVec S_ 1 := (fun x v => Host.reduce IntOp.andi x v reducesTo_S200000_S_d0 h_S_) main_v73 main_c_26
  let main_v75 : IVec S_ 1 := andi main_v66 main_v74
  main_v75

def fn_part3 {F : FTy → Type} [FloatOps F] (main_arg3 : IVec S2x200000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 32 := constantI S_ 32 50000#32
  let main_v53 : IVec S800000 32 := broadcastInDim S800000 ![] bcast_S_S800000 main_c_19
  let main_v54 : IVec S800000 1 := cmpi .slt main_v50 main_v53
  let main_v55 : IVec S800000 1 := andi main_v52 main_v54
  let main_c_20 : IVec S_ 1 := constantI S_ 1 1#1
  let main_v56 : IVec S_ 1 := (fun x v => Host.reduce IntOp.andi x v reducesTo_S800000_S_d0 h_S_) main_v55 main_c_20
  let main_v57 : IVec S_ 1 := andi main_v48 main_v56
  let main_v58 : IVec S1x200000 32 := (extractStridedSlice S1x200000 ![0, 0] · slices_S2x200000_S1x200000_0_0) main_arg3
  let main_v59 : IVec S200000 32 := shapeCast S200000 main_v58 shapeCasts_S1x200000_S200000
  let main_c_21 : IVec S_ 32 := constantI S_ 32 0#32
  let main_v60 : IVec S200000 32 := broadcastInDim S200000 ![] bcast_S_S200000 main_c_21
  let main_v61 : IVec S200000 1 := cmpi .sge main_v59 main_v60
  let main_c_22 : IVec S_ 32 := constantI S_ 32 50000#32
  let main_v62 : IVec S200000 32 := broadcastInDim S200000 ![] bcast_S_S200000 main_c_22
  let main_v63 : IVec S200000 1 := cmpi .slt main_v59 main_v62
  let main_v64 : IVec S200000 1 := andi main_v61 main_v63
  let main_c_23 : IVec S_ 1 := constantI S_ 1 1#1
  let main_v65 : IVec S_ 1 := (fun x v => Host.reduce IntOp.andi x v reducesTo_S200000_S_d0 h_S_) main_v64 main_c_23
  let main_v66 : IVec S_ 1 := andi main_v57 main_v65
  let main_v67 : IVec S1x200000 32 := (extractStridedSlice S1x200000 ![1, 0] · slices_S2x200000_S1x200000_1_0) main_arg3
  let main_v68 : IVec S200000 32 := shapeCast S200000 main_v67 shapeCasts_S1x200000_S200000
  let main_c_24 : IVec S_ 32 := constantI S_ 32 0#32
  fn_part4 (F := F) main_v66 main_v68 main_c_24

def fn_part2 {F : FTy → Type} [FloatOps F] (main_arg1 : IVec S2x800000 32) (main_arg3 : IVec S2x200000 32) (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg3 main_v48 main_v50 main_c_18

def fn_part1 {F : FTy → Type} [FloatOps F] (main_arg1 : IVec S2x800000 32) (main_arg3 : IVec S2x200000 32) (main_arg6 : FVec F S128x128 .f32) (main_arg7 : FVec F S128 .f32) (main_arg8 : FVec F S256x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg3 main_arg9 main_arg10 main_arg11 main_v33

def fn {F : FTy → Type} [FloatOps F] (main_arg0 : FVec F S50000x128 .f32) (main_arg1 : IVec S2x800000 32) (main_arg2 : FVec F S800000x32 .f32) (main_arg3 : IVec S2x200000 32) (main_arg4 : FVec F S32x128 .f32) (main_arg5 : FVec F S128 .f32) (main_arg6 : FVec F S128x128 .f32) (main_arg7 : FVec F S128 .f32) (main_arg8 : FVec F S256x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S2x200000 : Shape := ⟨2, ![2, 200000]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S1x1 : Shape := ⟨2, ![1, 1]⟩
abbrev S_ : Shape := ⟨0, ![]⟩
abbrev S800000x1 : Shape := ⟨2, ![800000, 1]⟩
abbrev S800000x128 : Shape := ⟨2, ![800000, 128]⟩
abbrev S10000x32 : Shape := ⟨2, ![10000, 32]⟩
abbrev S10000x128 : Shape := ⟨2, ![10000, 128]⟩
abbrev S5000x128 : Shape := ⟨2, ![5000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S10000x1 : Shape := ⟨2, ![10000, 1]⟩

abbrev nBuf : Space → Nat
  | .hbm => 132
  | .vmem => 43
  | .smem => 0
  | _ => 0

abbrev hbmTy0_0 (i : Nat) : BufTy := match i % 128 with
  | 0 => ⟨S50000x128, .f32⟩
  | 1 => ⟨S2x800000, .i32⟩
  | 2 => ⟨S800000x32, .f32⟩
  | 3 => ⟨S2x200000, .i32⟩
  | 4 => ⟨S32x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S1x128, .f32⟩
  | 17 => ⟨S1x128, .f32⟩
  | 18 => ⟨S128x128, .f32⟩
  | 19 => ⟨S128x128, .f32⟩
  | 20 => ⟨S1x128, .f32⟩
  | 21 => ⟨S1x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S1, .i32⟩
  | 31 => ⟨S_, .i32⟩
  | 32 => ⟨S800000x1, .i32⟩
  | 33 => ⟨S800000x1, .i1⟩
  | 34 => ⟨S1x1, .i32⟩
  | 35 => ⟨S800000x1, .i32⟩
  | 36 => ⟨S800000x1, .i1⟩
  | 37 => ⟨S800000x1, .i1⟩
  | 38 => ⟨S_, .i1⟩
  | 39 => ⟨S800000, .i1⟩
  | 40 => ⟨S800000x128, .f32⟩
  | 41 => ⟨S800000x128, .i1⟩
  | 42 => ⟨S_, .f32⟩
  | 43 => ⟨S800000x128, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x128, .f32⟩
  | 70 => ⟨S800000x128, .i1⟩
  | 71 => ⟨S_, .f32⟩
  | 72 => ⟨S800000x128, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x128, .f32⟩
  | 80 => ⟨S1x200000, .i32⟩
  | 81 => ⟨S200000, .i32⟩
  | 82 => ⟨S1x200000, .i32⟩
  | 83 => ⟨S200000, .i32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S1, .i32⟩
  | 93 => ⟨S_, .i32⟩
  | 94 => ⟨S200000x1, .i32⟩
  | 95 => ⟨S200000x1, .i1⟩
  | 96 => ⟨S1x1, .i32⟩
  | 97 => ⟨S200000x1, .i32⟩
  | 98 => ⟨S200000x1, .i1⟩
  | 99 => ⟨S200000x1, .i1⟩
  | 100 => ⟨S_, .i1⟩
  | 101 => ⟨S200000, .i1⟩
  | 102 => ⟨S200000x128, .f32⟩
  | 103 => ⟨S200000x128, .i1⟩
  | 104 => ⟨S_, .f32⟩
  | 105 => ⟨S200000x128, .f32⟩
  | 106 => ⟨S200000x128, .f32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S1, .i32⟩
  | 116 => ⟨S_, .i32⟩
  | 117 => ⟨S200000x1, .i32⟩
  | 118 => ⟨S200000x1, .i1⟩
  | 119 => ⟨S1x1, .i32⟩
  | 120 => ⟨S200000x1, .i32⟩
  | 121 => ⟨S200000x1, .i1⟩
  | 122 => ⟨S200000x1, .i1⟩
  | 123 => ⟨S_, .i1⟩
  | 124 => ⟨S200000, .i1⟩
  | 125 => ⟨S200000x128, .f32⟩
  | 126 => ⟨S200000x128, .i1⟩
  | 127 => ⟨S_, .f32⟩
  | _ => ⟨S50000x128, .f32⟩

abbrev hbmTy0_1 (i : Nat) : BufTy := match i % 128 with
  | 0 => ⟨S200000x128, .f32⟩
  | 1 => ⟨S200000x128, .f32⟩
  | 2 => ⟨S200000x1, .f32⟩
  | 3 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S10000x128, .f32⟩
  | .local _ .vmem, ⟨3, _⟩ => ⟨S10000x128, .f32⟩
  | .local _ .vmem, ⟨4, _⟩ => ⟨S32x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S10000x32, .f32⟩
  | .local _ .vmem, ⟨17, _⟩ => ⟨S10000x32, .f32⟩
  | .local _ .vmem, ⟨18, _⟩ => ⟨S10000x128, .f32⟩
  | .local _ .vmem, ⟨19, _⟩ => ⟨S10000x128, .f32⟩
  | .local _ .vmem, ⟨20, _⟩ => ⟨S32x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S128x128, .f32⟩
  | .local _ .vmem, ⟨37, _⟩ => ⟨S128x128, .f32⟩
  | .local _ .vmem, ⟨38, _⟩ => ⟨S1x128, .f32⟩
  | .local _ .vmem, ⟨39, _⟩ => ⟨S128x1, .f32⟩
  | .local _ .vmem, ⟨40, _⟩ => ⟨S1x1, .f32⟩
  | .local _ .vmem, ⟨41, _⟩ => ⟨S10000x1, .f32⟩
  | .local _ .vmem, ⟨42, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v10 : Ref sig .tc := ⟨.hbm, 44, rfl⟩
abbrev main_v11 : Ref sig .tc := ⟨.hbm, 45, rfl⟩
abbrev main_cst : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v16 : Ref sig .tc := ⟨.hbm, 73, rfl⟩
abbrev main_v17 : Ref sig .tc := ⟨.hbm, 74, rfl⟩
abbrev main_cst_0 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v26 : Ref sig .tc := ⟨.hbm, 106, rfl⟩
abbrev main_call3_c : Ref sig .tc := ⟨.hbm, 107, rfl⟩
abbrev main_call3_v0 : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_c_1 : Ref sig .tc := ⟨.hbm, 115, rfl⟩
abbrev main_call3_c_2 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_3 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_call3_cst : Ref sig .tc := ⟨.hbm, 127, rfl⟩
abbrev main_call3_v15 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg7_0 : Ref sig .tc := ⟨.vmem, 41, rfl⟩
abbrev cc4_stg7_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41
abbrev cc4_sem7_1 : DmaSem sig := 42

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  slices_S256x128_S128x128_0_0 : S256x128.Slices ![0, 0] S128x128
  slices_S256x128_S128x128_128_0 : S256x128.Slices ![128, 0] S128x128
  shapeCasts_S1_S1x1 : S1.ShapeCasts S1x1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  gather_S50000x128_S800000x1_S800000x128_1_0_n_n_0_1_1128_wf : GatherDims.WF S50000x128 S800000x1 S800000x128 [1] [0] [] [0] [] 1 ![1, 128]
  dot_S10000x32_S32x128_S10000x128_1_0_0_1_n_n_wf : DotDims.WF S10000x32 S32x128 S10000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S800000x32.size a
  hwx0_0 : ∀ i : grid0.Coords, EltTy.bits .f32 = 32 ∨ (Rect.block (s := S800000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S800000x128.size a
  hwx0_1 : ∀ i : grid0.Coords, EltTy.bits .f32 = 32 ∨ (Rect.block (s := S800000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S800000x128.size a
  hwx0_4 : ∀ i : grid0.Coords, EltTy.bits .f32 = 32 ∨ (Rect.block (s := S800000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S800000x32.size a
  hwx2_0 : ∀ i : grid2.Coords, EltTy.bits .f32 = 32 ∨ (Rect.block (s := S800000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S800000x128.size a
  hwx2_1 : ∀ i : grid2.Coords, EltTy.bits .f32 = 32 ∨ (Rect.block (s := S800000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .f32 = 32 ∨ (Rect.block (s := S32x128) S32x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S800000x128.size a
  hwx2_4 : ∀ i : grid2.Coords, EltTy.bits .f32 = 32 ∨ (Rect.block (s := S800000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S200000x128.size a
  hwx4_0 : ∀ i : grid4.Coords, EltTy.bits .f32 = 32 ∨ (Rect.block (s := S200000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S200000x128.size a
  hwx4_1 : ∀ i : grid4.Coords, EltTy.bits .f32 = 32 ∨ (Rect.block (s := S200000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x1.size a ≤ S200000x1.size a
  hwx4_7 : ∀ i : grid4.Coords, EltTy.bits .f32 = 32 ∨ (Rect.block (s := S200000x1) S10000x1.size (cc4_transform_7 i) (hinb4_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg2) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v15) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v26) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v7) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v8) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg10) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v9) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v28) S10000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S2x200000 : Shape := ⟨2, ![2, 200000]⟩
abbrev S32x128 : Shape := ⟨2, ![32, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S2x200000, .i32⟩
  | .hbm, ⟨4, _⟩ => ⟨S32x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S800000x128, .f32⟩
  | .hbm, ⟨17, _⟩ => ⟨S1x128, .f32⟩
  | .hbm, ⟨18, _⟩ => ⟨S800000x128, .f32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S1x200000, .i32⟩
  | .hbm, ⟨74, _⟩ => ⟨S200000, .i32⟩
  | .hbm, ⟨75, _⟩ => ⟨S_, .i32⟩
  | .hbm, ⟨76, _⟩ => ⟨S200000, .i32⟩
  | .hbm, ⟨77, _⟩ => ⟨S200000, .i1⟩
  | .hbm, ⟨78, _⟩ => ⟨S_, .i32⟩
  | .hbm, ⟨79, _⟩ => ⟨S200000, .i32⟩
  | .hbm, ⟨80, _⟩ => ⟨S200000, .i32⟩
  | .hbm, ⟨81, _⟩ => ⟨S200000, .i32⟩
  | .hbm, ⟨82, _⟩ => ⟨S200000x1, .i32⟩
  | .hbm, ⟨83, _⟩ => ⟨S200000x128, .f32⟩
  | .hbm, ⟨84, _⟩ => ⟨S1x200000, .i32⟩
  | .hbm, ⟨85, _⟩ => ⟨S200000, .i32⟩
  | .hbm, ⟨86, _⟩ => ⟨S_, .i32⟩
  | .hbm, ⟨87, _⟩ => ⟨S200000, .i32⟩
  | .hbm, ⟨88, _⟩ => ⟨S200000, .i1⟩
  | .hbm, ⟨89, _⟩ => ⟨S_, .i32⟩
  | .hbm, ⟨90, _⟩ => ⟨S200000, .i32⟩
  | .hbm, ⟨91, _⟩ => ⟨S200000, .i32⟩
  | .hbm, ⟨92, _⟩ => ⟨S200000, .i32⟩
  | .hbm, ⟨93, _⟩ => ⟨S200000x1, .i32⟩
  | .hbm, ⟨94, _⟩ => ⟨S200000x128, .f32⟩
  | .hbm, ⟨95, _⟩ => ⟨S200000x256, .f32⟩
  | .hbm, ⟨96, _⟩ => ⟨S200000x128, .f32⟩
  | .hbm, ⟨97, _⟩ => ⟨S1x128, .f32⟩
  | .hbm, ⟨98, _⟩ => ⟨S200000x128, .f32⟩
  | .hbm, ⟨99, _⟩ => ⟨S200000x128, .f32⟩
  | .hbm, ⟨100, _⟩ => ⟨S_, .f32⟩
  | .hbm, ⟨101, _⟩ => ⟨S200000x128, .f32⟩
  | .hbm, ⟨102, _⟩ => ⟨S200000x128, .f32⟩
  | .hbm, ⟨103, _⟩ => ⟨S200000x1, .f32⟩
  | .hbm, ⟨104, _⟩ => ⟨S1x1, .f32⟩
  | .hbm, ⟨105, _⟩ => ⟨S200000x1, .f32⟩
  | .hbm, ⟨106, _⟩ => ⟨S200000x1, .f32⟩
  | .hbm, ⟨107, _⟩ => ⟨S200000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call2_cst : Ref sig .tc := ⟨.hbm, 58, rfl⟩
abbrev main_call2_v0 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_6 : Ref sig .tc := ⟨.hbm, 75, rfl⟩
abbrev main_v49 : Ref sig .tc := ⟨.hbm, 76, rfl⟩
abbrev main_v50 : Ref sig .tc := ⟨.hbm, 77, rfl⟩
abbrev main_c_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_8 : Ref sig .tc := ⟨.hbm, 86, rfl⟩
abbrev main_v58 : Ref sig .tc := ⟨.hbm, 87, rfl⟩
abbrev main_v59 : Ref sig .tc := ⟨.hbm, 88, rfl⟩
abbrev main_c_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call3_cst : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S800000x32_S32x128_S800000x128_1_0_0_1_n_n_wf : DotDims.WF S800000x32 S32x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.FilledTake.lean ====
/-
  jnp.take with its default mode gathers a row of the 50000-row table per index and FILLS the row where the index, after numpy's
  wrap of negatives, falls outside [0, 49999]; plain indexing gathers with the start index clamped and fills nothing. When every
  index lies in [0, 50000) the wrap does nothing, the range test passes on every row, and the two are the same array.
-/
import proofs.«405423_j3315714752591_1_alg».proof.Proof.Gen.KernelIdeal
import Idealize.ShloMosaic.Lib.StableHlo.Predicate
import Idealize.ShloMosaic.Lib.ValueIdx
import Idealize.ShloMosaic.Lib.Pipeline.Value

noncomputable section

namespace Cert.KernelIdeal.FilledTake

open Cert.KernelIdeal Cert.KernelIdeal.Gen Idealize.ShloMosaic Idealize.ShloMosaic.TcCoe Idealize.ShloMosaic.ValueIdx
open scoped BigOperators

/-- Every entry of an index row names a row of the 50000-row table: `0 ≤ r e < 50000`, as the two signed word compares say it. -/
def RowOk {S : Shape} (r : IVec S 32) : Prop :=
  ∀ e, IntOp.cmpi .sge (r e) 0#32 = 1#1 ∧ IntOp.cmpi .slt (r e) 50000#32 = 1#1

/-! ### One index word -/

/-- A word that is at least 0 as a signed word is not below 0: numpy's wrap leaves it alone. -/
private theorem wrap_id (w : BitVec 32) (h0 : IntOp.cmpi .sge w 0#32 = 1#1) :
    Scalar.select (IntOp.cmpi .slt w 0#32) (IntOp.addi w 50000#32) w = w := by
  have hz : IntOp.cmpi .slt w 0#32 = 0#1 := by
    simp only [IntOp.cmpi, StableHlo.Predicate.ofBool_eq_one_iff, BitVec.sle, decide_eq_true_eq] at h0
    simp only [IntOp.cmpi, BitVec.slt]
    rw [decide_eq_false (by omega)]
    rfl
  rw [hz]
  rfl

/-- A signed word below 50000 is at most 49999. -/
private theorem sle_of_slt (w : BitVec 32) (h1 : IntOp.cmpi .slt w 50000#32 = 1#1) :
    IntOp.cmpi .sle w 49999#32 = 1#1 := by
  have e1 : (50000#32 : BitVec 32).toInt = 50000 := by decide
  have e2 : (49999#32 : BitVec 32).toInt = 49999 := by decide
  simp only [IntOp.cmpi, StableHlo.Predicate.ofBool_eq_one_iff, BitVec.slt, decide_eq_true_eq, e1] at h1
  simp only [IntOp.cmpi, StableHlo.Predicate.ofBool_eq_one_iff, BitVec.sle, decide_eq_true_eq, e2]
  omega

/-! ### The and-reduce of an array of ones, and a select under a mask of ones -/

private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- An and-reduce from the word 1 of an array that is 1 everywhere is 1 at every result index. -/
private theorem reduce_andi_ones {s t u : Shape} {axes : List (Fin s.rank)} (x : s.Idx → BitVec 1)
    (init : u.Idx → BitVec 1) (h : s.ReducesTo axes t) (hu : 0 < u.numel) (hx : ∀ i, x i = 1#1)
    (hi : init (Shape.Idx.first hu) = 1#1) (j : t.Idx) : Host.reduce IntOp.andi x init h hu j = 1#1 := by
  rw [Host.reduce_eq_foldl, hi]
  exact foldl_andi_ones x hx _

/-- A select whose mask is 1 everywhere is its first branch. -/
private theorem select_ones {s : Shape} {α : Type} (c : IVec s 1) (a b : s.Idx → α) (hc : ∀ i, c i = 1#1) :
    select c a b = a := by
  funext i
  show Scalar.select (c i) (a i) (b i) = a i
  rw [hc i]
  rfl

/-- numpy's rule for a negative index (add the table's length), then the row laid as a column of start indices: 800000 of them. -/
def startsE (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The filled take over 800000 indices: the gathered row where the wrapped index lies in [0, 49999], the fill word elsewhere. -/
def takeE (x : Vec Ideal S50000x128 .f32) (r : IVec S800000 32) : Vec Ideal S800000x128 .f32 :=
  select
    (broadcastInDim S800000x128 ![0] bcast_S800000_S800000x128_0
      (Host.reduce IntOp.andi
        (andi (cmpi .sge (startsE r) (broadcastInDim S800000x1 ![] bcast_S_S800000x1 (constantI S_ 32 0#32)))
              (cmpi .sle (startsE r) (broadcastInDim S800000x1 ![0, 1] bcast_S1x1_S800000x1_0_1
                (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 x (startsE r))
    (broadcastInDim S800000x128 ![] bcast_S_S800000x128 (constant (F := Ideal) S_ .f32 0x7FC00000#32))

/-- With every index in range nothing is filled: the filled take is the plain gather at the same start indices. -/
theorem takeE_eq (x : Vec Ideal S50000x128 .f32) (r : IVec S800000 32) (h : RowOk r) :
    takeE x r = Host.gather gather_S50000x128_S800000x1_S800000x128_1_0_n_n_0_1_1128 x (startsE r) := by
  unfold takeE
  refine select_ones _ _ _ fun i => ?_
  show Host.reduce IntOp.andi _ _ _ _ _ = 1#1
  refine reduce_andi_ones _ _ _ _ (fun k => ?_) rfl _
  obtain ⟨h0, h1⟩ := h (fun a => if h1 : S800000.size a = 1 then ⟨0, by omega⟩ else ⟨(k ((![0] : Fin 1 → Fin 2) a)).val, by
      rcases bcast_S800000_S800000x1_0.2 a with h2 | h2
      · exact absurd h2 h1
      · rw [h2]; exact (k _).isLt⟩)
  show IntOp.andi (IntOp.cmpi .sge (Scalar.select (IntOp.cmpi .slt (r _) 0#32) (IntOp.addi (r _) 50000#32) (r _)) 0#32)
      (IntOp.cmpi .sle (Scalar.select (IntOp.cmpi .slt (r _) 0#32) (IntOp.addi (r _) 50000#32) (r _)) 49999#32) = 1#1
  rw [wrap_id _ h0, h0, sle_of_slt _ h1]
  rfl

/-- numpy's rule for a negative index (add the table's length), then the row laid as a column of start indices: 200000 of them. -/
def startsL (r : IVec S200000 32) : IVec S200000x1 32 :=
  broadcastInDim S200000x1 ![0] bcast_S200000_S200000x1_0
    (select (cmpi .slt r (broadcastInDim S200000 ![] bcast_S_S200000 (constantI S_ 32 0#32)))
      (addi r (broadcastInDim S200000 ![] bcast_S_S200000 (constantI S_ 32 50000#32))) r)

/-- The filled take over 200000 indices: the gathered row where the wrapped index lies in [0, 49999], the fill word elsewhere. -/
def takeL (x : Vec Ideal S50000x128 .f32) (r : IVec S200000 32) : Vec Ideal S200000x128 .f32 :=
  select
    (broadcastInDim S200000x128 ![0] bcast_S200000_S200000x128_0
      (Host.reduce IntOp.andi
        (andi (cmpi .sge (startsL r) (broadcastInDim S200000x1 ![] bcast_S_S200000x1 (constantI S_ 32 0#32)))
              (cmpi .sle (startsL r) (broadcastInDim S200000x1 ![0, 1] bcast_S1x1_S200000x1_0_1
                (broadcastInDim S1x1 ![1] bcast_S1_S1x1_1 (constantI S1 32 49999#32)))))
        (constantI S_ 1 1#1) reducesTo_S200000x1_S200000_d1 h_S_))
    (Host.gather gather_S50000x128_S200000x1_S200000x128_1_0_n_n_0_1_1128 x (startsL r))
    (broadcastInDim S200000x128 ![] bcast_S_S200000x128 (constant (F := Ideal) S_ .f32 0x7FC00000#32))

/-- With every index in range nothing is filled: the filled take is the plain gather at the same start indices. -/
theorem takeL_eq (x : Vec Ideal S50000x128 .f32) (r : IVec S200000 32) (h : RowOk r) :
    takeL x r = Host.gather gather_S50000x128_S200000x1_S200000x128_1_0_n_n_0_1_1128 x (startsL r) := by
  unfold takeL
  refine select_ones _ _ _ fun i => ?_
  show Host.reduce IntOp.andi _ _ _ _ _ = 1#1
  refine reduce_andi_ones _ _ _ _ (fun k => ?_) rfl _
  obtain ⟨h0, h1⟩ := h (fun a => if h1 : S200000.size a = 1 then ⟨0, by omega⟩ else ⟨(k ((![0] : Fin 1 → Fin 2) a)).val, by
      rcases bcast_S200000_S200000x1_0.2 a with h2 | h2
      · exact absurd h2 h1
      · rw [h2]; exact (k _).isLt⟩)
  show IntOp.andi (IntOp.cmpi .sge (Scalar.select (IntOp.cmpi .slt (r _) 0#32) (IntOp.addi (r _) 50000#32) (r _)) 0#32)
      (IntOp.cmpi .sle (Scalar.select (IntOp.cmpi .slt (r _) 0#32) (IntOp.addi (r _) 50000#32) (r _)) 49999#32) = 1#1
  rw [wrap_id _ h0, h0, sle_of_slt _ h1]
  rfl

end Cert.KernelIdeal.FilledTake

end
-- ==== Proof.ChainDefs.lean ====
/-
  Names for the kernel program's twelve argument arrays at their literal shapes, for the three index rows both programs cut out
  of the two index arguments (the edges' source row, the labelled edges' two endpoint rows), and for the one thing the
  precondition says of them: every entry is a row of the 50000-row node table.
-/
import proofs.«405423_j3315714752591_1_alg».proof.Proof.Gen.KernelIdeal.Frame
import proofs.«405423_j3315714752591_1_alg».proof.Proof.Gen.ReferenceIdeal.Read
import proofs.«405423_j3315714752591_1_alg».proof.Proof.FilledTake

noncomputable section

namespace Cert.KernelIdeal.Chain

open Cert.KernelIdeal Cert.KernelIdeal.Gen Idealize.ShloMosaic Idealize.ShloMosaic.TcCoe

variable (m : (ℓ : Loc nD τ sig) → Buf (Elt Ideal) ℓ) (c : Dev nD)

/-- The argument `x` as launched. -/
abbrev A0 : Vec Ideal S50000x128 .f32 := m ((c : Thread nD τ).loc main_arg0)
/-- The argument `edge_index` as launched. -/
abbrev A1 : IVec S2x800000 32 := m ((c : Thread nD τ).loc main_arg1)
/-- The argument `edge_attr` as launched. -/
abbrev A2 : Vec Ideal S800000x32 .f32 := m ((c : Thread nD τ).loc main_arg2)
/-- The argument `edge_label_index` as launched. -/
abbrev A3 : IVec S2x200000 32 := m ((c : Thread nD τ).loc main_arg3)
/-- The argument `lin_edge_W` as launched. -/
abbrev A4 : Vec Ideal S32x128 .f32 := m ((c : Thread nD τ).loc main_arg4)
/-- The argument `lin_edge_b` as launched. -/
abbrev A5 : Vec Ideal S128 .f32 := m ((c : Thread nD τ).loc main_arg5)
/-- The argument `nn_W` as launched. -/
abbrev A6 : Vec Ideal S128x128 .f32 := m ((c : Thread nD τ).loc main_arg6)
/-- The argument `nn_b` as launched. -/
abbrev A7 : Vec Ideal S128 .f32 := m ((c : Thread nD τ).loc main_arg7)
/-- The argument `cls_W1` as launched. -/
abbrev A8 : Vec Ideal S256x128 .f32 := m ((c : Thread nD τ).loc main_arg8)
/-- The argument `cls_b1` as launched. -/
abbrev A9 : Vec Ideal S128 .f32 := m ((c : Thread nD τ).loc main_arg9)
/-- The argument `cls_W2` as launched. -/
abbrev A10 : Vec Ideal S128x1 .f32 := m ((c : Thread nD τ).loc main_arg10)
/-- The argument `cls_b2` as launched. -/
abbrev A11 : Vec Ideal S1 .f32 := m ((c : Thread nD τ).loc main_arg11)

/-- Row 0 of `edge_index`: each edge's source node. -/
abbrev srcRow : IVec S800000 32 := Cert.ReferenceIdeal.Read.val_main_v1 (F := Ideal) (A1 m c)
/-- Row 0 of `edge_label_index`: each labelled edge's first endpoint. -/
abbrev liRow : IVec S200000 32 := Cert.ReferenceIdeal.Read.val_main_v48 (F := Ideal) (A3 m c)
/-- Row 1 of `edge_label_index`: each labelled edge's second endpoint. -/
abbrev ljRow : IVec S200000 32 := Cert.ReferenceIdeal.Read.val_main_v57 (F := Ideal) (A3 m c)

/-- The three index rows name rows of the node table. -/
structure InRange : Prop where
  src : FilledTake.RowOk (srcRow m c)
  li : FilledTake.RowOk (liRow m c)
  lj : FilledTake.RowOk (ljRow m c)

end Cert.KernelIdeal.Chain

end
-- ==== Proof.RangeOfPre.lean ====
/-
  What the precondition says of the index arguments: its last three conjuncts are `all (0 ≤ r ∧ r < 50000)` for the edges' source
  row and the labelled edges' two endpoint rows, so each of those rows names rows of the node table.
-/
import proofs.«405423_j3315714752591_1_alg».proof.Defs
import proofs.«405423_j3315714752591_1_alg».proof.Proof.Gen.Pre_finite_inputs
import proofs.«405423_j3315714752591_1_alg».proof.Proof.ChainDefs
import Idealize.ShloMosaic.Lib.ReduceAll
import Idealize.ShloMosaic.Lib.StableHlo.Predicate
import Idealize.ShloMosaic.Lib.ValueIdx

noncomputable section

namespace Cert.KernelIdeal.Chain

open Cert.KernelIdeal Cert.KernelIdeal.Gen Idealize.ShloMosaic Idealize.ShloMosaic.TcCoe

/-- A rank-0 array has one index. -/
private instance : Subsingleton Cert.Pre_finite_inputs.S_.Idx := ⟨fun a b => funext fun d => d.elim0⟩

/-- One `all (0 ≤ r ∧ r < 50000)`: when the and-reduce over the whole row of the two compares' conjunction is 1, every entry
    passes both compares. The two bounds are arrays constant at 0 and at 50000. -/
private theorem rowOk_of_all {s t u : Shape} {axes : List (Fin s.rank)} [Subsingleton t.Idx] (row z f : IVec s 32)
    (hz : ∀ i, z i = 0#32) (hf : ∀ i, f i = 50000#32) (init : u.Idx → BitVec 1) (h : s.ReducesTo axes t)
    (hu : 0 < u.numel) (j : t.Idx)
    (e : Host.reduce IntOp.andi (andi (cmpi .sge row z) (cmpi .slt row f)) init h hu j = 1#1) : FilledTake.RowOk row := by
  intro i
  have hi : IntOp.andi (IntOp.cmpi .sge (row i) (z i)) (IntOp.cmpi .slt (row i) (f i)) = 1#1 :=
    Host.reduce_andi_all _ init h hu j e i
  rw [hz i, hf i] at hi
  exact IntOp.andi_eq_one.1 hi

/-- The precondition puts the three index rows in range. -/
theorem inRange_of_pre (m : (ℓ : Loc nD τ sig) → Buf (Elt Ideal) ℓ) (hpre : Cert.Pre_KernelIdeal m) (c : Dev nD) :
    InRange m c := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e12, e3⟩ := IntOp.andi_eq_one.1 (show IntOp.andi _ _ = 1#1 from e)
  obtain ⟨e1', e2⟩ := IntOp.andi_eq_one.1 (show IntOp.andi _ _ = 1#1 from e12)
  obtain ⟨-, e1⟩ := IntOp.andi_eq_one.1 (show IntOp.andi _ _ = 1#1 from e1')
  exact ⟨rowOk_of_all _ _ _ (fun _ => rfl) (fun _ => rfl) _ _ _ _ e1,
    rowOk_of_all _ _ _ (fun _ => rfl) (fun _ => rfl) _ _ _ _ e2,
    rowOk_of_all _ _ _ (fun _ => rfl) (fun _ => rfl) _ _ _ _ e3⟩

end Cert.KernelIdeal.Chain

end
-- ==== Proof.RowFns.lean ====
/-
  The three row-wise functions this certificate is about, on the extended reals, index by index.

  * `msgFn`: one edge's message, `max (x_src + (attr · W + b)) 0` — the edge's attribute row times the
    32 × 128 weight, plus the bias row, added to the gathered source row, clipped below at zero.
  * `nodeFn`: one node's update, `(1 · x + agg) · W + b`, clipped below at zero when `relu` is set.
  * `clsFn`: one labelled edge's score, `max (xi · Wa + xj · Wb + b1) 0 · w2 + b2` — the two endpoint rows go through
    the two halves of the first weight separately and are added.

  Each is a function of a ROW of its first operands and of the whole weights, so a block of rows of the result is the
  same function of the same block of rows of the operands, whatever the block. The literal `1.0` is kept as its
  binary word: both programs carry the same word and it is never evaluated.
-/
import Idealize.ShloMosaic.PureOps.Ideal
import Idealize.ShloMosaic.Lib.ValueIdx

noncomputable section

namespace Cert.GNN

open Idealize.ShloMosaic Idealize.ShloMosaic.ValueIdx
open scoped BigOperators

/-- The word of `1.0` read at the ideal instance. -/
abbrev oneW : EReal := Ideal.ofBits .f32 0x3F800000#32

/-- An edge's message row: `max (xs + (attr · W + b)) 0`. -/
def msgFn {E : Nat} (attr : (⟨2, ![E, 32]⟩ : Shape).Idx → EReal) (xs : (⟨2, ![E, 128]⟩ : Shape).Idx → EReal)
    (W : (⟨2, ![32, 128]⟩ : Shape).Idx → EReal) (b : (⟨2, ![1, 128]⟩ : Shape).Idx → EReal) :
    (⟨2, ![E, 128]⟩ : Shape).Idx → EReal :=
  fun i => max (xs (ix2 (i 0) (i 1)) + ((∑ k : Fin 32, attr (ix2 (i 0) k) * W (ix2 k (i 1))) + b (ix2 0 (i 1)))) 0

/-- A node's updated row: `(1 · x + agg) · W + b`, clipped below at zero when `relu`. -/
def nodeFn {N : Nat} (relu : Bool) (x agg : (⟨2, ![N, 128]⟩ : Shape).Idx → EReal)
    (W : (⟨2, ![128, 128]⟩ : Shape).Idx → EReal) (b : (⟨2, ![1, 128]⟩ : Shape).Idx → EReal) :
    (⟨2, ![N, 128]⟩ : Shape).Idx → EReal :=
  fun i =>
    let y := (∑ k : Fin 128, (oneW * x (ix2 (i 0) k) + agg (ix2 (i 0) k)) * W (ix2 k (i 1))) + b (ix2 0 (i 1))
    if relu then max y 0 else y

/-- The hidden row of the classifier: `max ((xi · Wa + xj · Wb) + b1) 0`. -/
def clsHidden {L : Nat} (xi xj : (⟨2, ![L, 128]⟩ : Shape).Idx → EReal)
    (Wa Wb : (⟨2, ![128, 128]⟩ : Shape).Idx → EReal) (b1 : (⟨2, ![1, 128]⟩ : Shape).Idx → EReal)
    (r : Fin L) (h : Fin 128) : EReal :=
  max (((∑ k : Fin 128, xi (ix2 r k) * Wa (ix2 k h)) + (∑ k : Fin 128, xj (ix2 r k) * Wb (ix2 k h))) + b1 (ix2 0 h)) 0

/-- A labelled edge's score: the hidden row times the 128 × 1 weight, plus the bias. -/
def clsFn {L : Nat} (xi xj : (⟨2, ![L, 128]⟩ : Shape).Idx → EReal)
    (Wa Wb : (⟨2, ![128, 128]⟩ : Shape).Idx → EReal) (b1 : (⟨2, ![1, 128]⟩ : Shape).Idx → EReal)
    (w2 : (⟨2, ![128, 1]⟩ : Shape).Idx → EReal) (b2 : (⟨2, ![1, 1]⟩ : Shape).Idx → EReal) :
    (⟨2, ![L, 1]⟩ : Shape).Idx → EReal :=
  fun i => (∑ h : Fin 128, clsHidden xi xj Wa Wb b1 (i 0) h * w2 (ix2 h 0)) + b2 (ix2 0 0)

end Cert.GNN

end
-- ==== Proof.RefStages.lean ====
/-
  The reference's three arithmetic stretches, each read as the row-wise function it computes, for ANY gathered or aggregated
  operand going in:
  * after the gather, `max (xs + (attr · W + b)) 0` is `msgFn`;
  * after the scatter-add, `(1 · x + agg) · W + b` (clipped or not) is `nodeFn`;
  * after the two endpoint gathers, the concatenated 256-wide row times the 256 × 128 weight is the sum of the two 128-wide
    products with the weight's upper and lower halves (a finite sum split in two: no finiteness is needed), so the
    classifier's stretch is `clsFn` at those halves.
  The bias rows and the weight halves are taken as arrays related to the arguments entry by entry, which is how the other
  program holds them (a reshaped bias, two slices of the weight).
-/
import proofs.«405423_j3315714752591_1_alg».proof.Proof.Gen.ReferenceIdeal.Read
import proofs.«405423_j3315714752591_1_alg».proof.Proof.RowFns
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.TcCoe Idealize.ShloMosaic.ValueIdx
open scoped BigOperators

/-- The message stretch: for any gathered rows `xs`. -/
theorem msg_stage (xs : FVec Ideal S800000x128 .f32) (a2 : FVec Ideal S800000x32 .f32) (a4 : FVec Ideal S32x128 .f32)
    (a5 : FVec Ideal S128 .f32) (b : FVec Ideal S1x128 .f32) (hb : ∀ q : Fin 128, b (ix2 0 q) = a5 (ix1 q)) :
    maximumf (F := Ideal) (addf (F := Ideal) xs (val_main_v7 (F := Ideal) a2 a4 a5)) (val_main_call0_v0 (F := Ideal))
      = (Cert.GNN.msgFn (E := 800000) a2 xs a4 b : FVec Ideal S800000x128 .f32) := by
  funext i
  obtain ⟨p, q, rfl⟩ : ∃ (p : Fin 800000) (q : Fin 128), i = ix2 p q := ⟨i 0, i 1, eq_ix2 i⟩
  have el : ∀ k : Fin 32, lidx_main_v4 (ix2 p q) k = ix2 p k := fun k => funext fun a => Fin.ext (by
    match a with | ⟨0, _⟩ => rfl | ⟨1, _⟩ => rfl)
  have er : ∀ k : Fin 32, ridx_main_v4 (ix2 p q) k = ix2 k q := fun k => funext fun a => Fin.ext (by
    match a with | ⟨0, _⟩ => rfl | ⟨1, _⟩ => rfl)
  have eb : idx_main_v5 (idx_main_v6 (ix2 p q)) = ix1 q := funext fun a => Fin.ext (by
    match a with | ⟨0, _⟩ => rfl)
  show max (xs (ix2 p q) + val_main_v7 (F := Ideal) a2 a4 a5 (ix2 p q)) (val_main_call0_v0 (F := Ideal) (ix2 p q)) = _
  rw [val_main_v7_apply, val_main_v4_apply, val_main_v6_apply, val_main_v5_apply, val_main_call0_v0_apply,
    val_main_call0_cst_apply]
  simp only [el, er, eb, Ideal.addf_def, Ideal.ofBits_def, Ideal.ofBits_zero_f32, ← hb]
  rfl

/-- The 50000 × 128 by 128 × 128 product of the node update, for any left operand, read at an index. -/
private theorem dot_node_apply (y : FVec Ideal S50000x128 .f32) (a6 : FVec Ideal S128x128 .f32) (p : Fin 50000) (q : Fin 128) :
    Host.dotGeneral (F := Ideal) dot_S50000x128_S128x128_S50000x128_1_0_0_1_n_n none y a6 (ix2 p q)
      = ∑ k : Fin 128, y (ix2 p k) * a6 (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact lhs_main_v23_0 _ _
    | ⟨1, _⟩ => exact (lhs_main_v23_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (rhs_main_v23_0 _ _).trans hk
    | ⟨1, _⟩ => exact rhs_main_v23_1 _ _)
  rw [el, er]

/-- The first layer's node stretch (clipped): for any node rows `x` and aggregated rows `agg`. -/
theorem node_stage_relu (x agg : FVec Ideal S50000x128 .f32) (a6 : FVec Ideal S128x128 .f32) (a7 : FVec Ideal S128 .f32)
    (b : FVec Ideal S1x128 .f32) (hb : ∀ q : Fin 128, b (ix2 0 q) = a7 (ix1 q)) :
    maximumf (F := Ideal) (addf (F := Ideal) (Host.dotGeneral (F := Ideal) dot_S50000x128_S128x128_S50000x128_1_0_0_1_n_n none
        (addf (F := Ideal) (mulf (F := Ideal) (val_main_v20 (F := Ideal)) x) agg) a6) (val_main_v25 (F := Ideal) a7)) (val_main_call1_v0 (F := Ideal))
      = (Cert.GNN.nodeFn (N := 50000) true x agg a6 b : FVec Ideal S50000x128 .f32) := by
  funext i
  obtain ⟨p, q, rfl⟩ : ∃ (p : Fin 50000) (q : Fin 128), i = ix2 p q := ⟨i 0, i 1, eq_ix2 i⟩
  have eb : idx_main_v24 (idx_main_v25 (ix2 p q)) = ix1 q := funext fun a => Fin.ext (by
    match a with | ⟨0, _⟩ => rfl)
  generalize hy : addf (F := Ideal) (mulf (F := Ideal) (val_main_v20 (F := Ideal)) x) agg = y
  show max (Host.dotGeneral (F := Ideal) dot_S50000x128_S128x128_S50000x128_1_0_0_1_n_n none y a6 (ix2 p q)
      + val_main_v25 (F := Ideal) a7 (ix2 p q)) (val_main_call1_v0 (F := Ideal) (ix2 p q)) = _
  rw [dot_node_apply, val_main_v25_apply, val_main_v24_apply, val_main_call1_v0_apply, val_main_call1_cst_apply]
  subst hy
  simp only [addf_apply, mulf_apply, val_main_v20_apply, val_main_cst_1_apply, eb, Ideal.ofBits_def,
    Ideal.ofBits_zero_f32, ← hb]
  rfl

/-- The second layer's node stretch (not clipped). -/
theorem node_stage (x agg : FVec Ideal S50000x128 .f32) (a6 : FVec Ideal S128x128 .f32) (a7 : FVec Ideal S128 .f32)
    (b : FVec Ideal S1x128 .f32) (hb : ∀ q : Fin 128, b (ix2 0 q) = a7 (ix1 q)) :
    addf (F := Ideal) (Host.dotGeneral (F := Ideal) dot_S50000x128_S128x128_S50000x128_1_0_0_1_n_n none
        (addf (F := Ideal) (mulf (F := Ideal) (val_main_v40 (F := Ideal)) x) agg) a6) (val_main_v45 (F := Ideal) a7)
      = (Cert.GNN.nodeFn (N := 50000) false x agg a6 b : FVec Ideal S50000x128 .f32) := by
  funext i
  obtain ⟨p, q, rfl⟩ : ∃ (p : Fin 50000) (q : Fin 128), i = ix2 p q := ⟨i 0, i 1, eq_ix2 i⟩
  have eb : idx_main_v44 (idx_main_v45 (ix2 p q)) = ix1 q := funext fun a => Fin.ext (by
    match a with | ⟨0, _⟩ => rfl)
  generalize hy : addf (F := Ideal) (mulf (F := Ideal) (val_main_v40 (F := Ideal)) x) agg = y
  show Host.dotGeneral (F := Ideal) dot_S50000x128_S128x128_S50000x128_1_0_0_1_n_n none y a6 (ix2 p q)
      + val_main_v45 (F := Ideal) a7 (ix2 p q) = _
  rw [dot_node_apply, val_main_v45_apply, val_main_v44_apply]
  subst hy
  simp only [addf_apply, mulf_apply, val_main_v40_apply, val_main_cst_5_apply, eb, Ideal.ofBits_def, ← hb]
  rfl

/-- The 200000 × 256 by 256 × 128 product of the classifier's first layer, for any left operand, read at an index. -/
private theorem dot_hidden_apply (z : FVec Ideal S200000x256 .f32) (a8 : FVec Ideal S256x128 .f32) (r : Fin 200000) (h : Fin 128) :
    Host.dotGeneral (F := Ideal) dot_S200000x256_S256x128_S200000x128_1_0_0_1_n_n none z a8 (ix2 r h)
      = ∑ k : Fin 256, z (ix2 r k) * a8 (ix2 k h) := by
  simp only [Host.dotGeneral]
  rw [Ideal.dotGeneral_apply, ← Equiv.sum_comp (ValueIdx.contrEquiv1 dot_S200000x256_S256x128_S200000x128_1_0_0_1_n_n 256 rfl rfl).symm]
  refine Finset.sum_congr rfl fun k _ => ?_
  have hk := ValueIdx.contrEquiv1_symm_val dot_S200000x256_S256x128_S200000x128_1_0_0_1_n_n 256 rfl rfl k
  have el : dot_S200000x256_S256x128_S200000x128_1_0_0_1_n_n.lhsIdx (ix2 r h) ((ValueIdx.contrEquiv1 dot_S200000x256_S256x128_S200000x128_1_0_0_1_n_n 256 rfl rfl).symm k) = ix2 r k := funext fun a => Fin.ext (by
    match a with
    | ⟨0, _⟩ => exact lhs_main_v66_0 _ _
    | ⟨1, _⟩ => exact (lhs_main_v66_1 _ _).trans hk)
  have er : dot_S200000x256_S256x128_S200000x128_1_0_0_1_n_n.rhsIdx (ix2 r h) ((ValueIdx.contrEquiv1 dot_S200000x256_S256x128_S200000x128_1_0_0_1_n_n 256 rfl rfl).symm k) = ix2 k h := funext fun a => Fin.ext (by
    match a with
    | ⟨0, _⟩ => exact (rhs_main_v66_0 _ _).trans hk
    | ⟨1, _⟩ => exact rhs_main_v66_1 _ _)
  rw [el, er]

/-- The 200000 × 128 by 128 × 1 product of the classifier's second layer, for any left operand, read at an index. -/
private theorem dot_score_apply (y : FVec Ideal S200000x128 .f32) (a10 : FVec Ideal S128x1 .f32) (r : Fin 200000) (c : Fin 1) :
    Host.dotGeneral (F := Ideal) dot_S200000x128_S128x1_S200000x1_1_0_0_1_n_n none y a10 (ix2 r c)
      = ∑ k : Fin 128, y (ix2 r k) * a10 (ix2 k c) := by
  simp only [Host.dotGeneral]
  rw [Ideal.dotGeneral_apply, ← Equiv.sum_comp (ValueIdx.contrEquiv1 dot_S200000x128_S128x1_S200000x1_1_0_0_1_n_n 128 rfl rfl).symm]
  refine Finset.sum_congr rfl fun k _ => ?_
  have hk := ValueIdx.contrEquiv1_symm_val dot_S200000x128_S128x1_S200000x1_1_0_0_1_n_n 128 rfl rfl k
  have el : dot_S200000x128_S128x1_S200000x1_1_0_0_1_n_n.lhsIdx (ix2 r c) ((ValueIdx.contrEquiv1 dot_S200000x128_S128x1_S200000x1_1_0_0_1_n_n 128 rfl rfl).symm k) = ix2 r k := funext fun a => Fin.ext (by
    match a with
    | ⟨0, _⟩ => exact lhs_main_v71_0 _ _
    | ⟨1, _⟩ => exact (lhs_main_v71_1 _ _).trans hk)
  have er : dot_S200000x128_S128x1_S200000x1_1_0_0_1_n_n.rhsIdx (ix2 r c) ((ValueIdx.contrEquiv1 dot_S200000x128_S128x1_S200000x1_1_0_0_1_n_n 128 rfl rfl).symm k) = ix2 k c := funext fun a => Fin.ext (by
    match a with
    | ⟨0, _⟩ => exact (rhs_main_v71_0 _ _).trans hk
    | ⟨1, _⟩ => exact rhs_main_v71_1 _ _)
  rw [el, er]

/-- A column below 128 of the joined 256-wide row is the same column of the first endpoint's row. -/
private theorem cat_left (xi xj : FVec Ideal S200000x128 .f32) (r : Fin 200000) (k : Fin 128) (hk : k.val < 256) :
    concatenate S200000x256 1 [⟨S200000x128, xi⟩, ⟨S200000x128, xj⟩] concatenates_S200000x128_S200000x128_S200000x256_d1
        (ix2 r (⟨k.val, hk⟩ : Fin 256)) = xi (ix2 r k) :=
  concatenate_pair_apply_left 1 xi xj concatenates_S200000x128_S200000x128_S200000x256_d1 (ix2 r (⟨k.val, hk⟩ : Fin 256)) rfl (ix2 r k)
    (fun b => match b with | ⟨0, _⟩ => rfl | ⟨1, _⟩ => rfl)

/-- Column 128 + k of the joined row is column k of the second endpoint's row. -/
private theorem cat_right (xi xj : FVec Ideal S200000x128 .f32) (r : Fin 200000) (k : Fin 128) (hk : 128 + k.val < 256) :
    concatenate S200000x256 1 [⟨S200000x128, xi⟩, ⟨S200000x128, xj⟩] concatenates_S200000x128_S200000x128_S200000x256_d1
        (ix2 r (⟨128 + k.val, hk⟩ : Fin 256)) = xj (ix2 r k) :=
  concatenate_pair_apply_right 1 xi xj concatenates_S200000x128_S200000x128_S200000x256_d1 (ix2 r (⟨128 + k.val, hk⟩ : Fin 256)) rfl rfl (ix2 r k)
    (fun b => match b with | ⟨0, _⟩ => fun _ => rfl | ⟨1, _⟩ => fun hne => absurd rfl hne)
    (by show k.val + 128 = 128 + k.val; omega)

/-- A sum over 256 columns is the sum over the first 128 plus the sum over the last 128. -/
private theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) (f : Fin (128 + 128) → EReal)

/-- The classifier's hidden row: the joined row times the 256 × 128 weight, plus the bias, clipped at zero. -/
private theorem hidden_apply (xi xj : FVec Ideal S200000x128 .f32) (a8 : FVec Ideal S256x128 .f32) (a9 : FVec Ideal S128 .f32)
    (Wa Wb : FVec Ideal S128x128 .f32) (b1 : FVec Ideal S1x128 .f32)
    (hWa : ∀ k h : Fin 128, Wa (ix2 k h) = a8 (ix2 (⟨k.val, by omega⟩ : Fin 256) h))
    (hWb : ∀ k h : Fin 128, Wb (ix2 k h) = a8 (ix2 (⟨128 + k.val, by omega⟩ : Fin 256) h))
    (hb1 : ∀ q : Fin 128, b1 (ix2 0 q) = a9 (ix1 q)) (r : Fin 200000) (h : Fin 128) :
    maximumf (F := Ideal) (addf (F := Ideal) (Host.dotGeneral (F := Ideal) dot_S200000x256_S256x128_S200000x128_1_0_0_1_n_n none
            (concatenate S200000x256 1 [⟨S200000x128, xi⟩, ⟨S200000x128, xj⟩] concatenates_S200000x128_S200000x128_S200000x256_d1) a8)
          (val_main_v68 (F := Ideal) a9)) (val_main_call3_v0 (F := Ideal)) (ix2 r h)
      = Cert.GNN.clsHidden xi xj Wa Wb b1 r h := by
  have eb : idx_main_v67 (idx_main_v68 (ix2 r h)) = ix1 h := funext fun a => Fin.ext (by
    match a with | ⟨0, _⟩ => rfl)
  generalize hz : concatenate S200000x256 1 [⟨S200000x128, xi⟩, ⟨S200000x128, xj⟩] concatenates_S200000x128_S200000x128_S200000x256_d1 = z
  show max (Host.dotGeneral (F := Ideal) dot_S200000x256_S256x128_S200000x128_1_0_0_1_n_n none z a8 (ix2 r h)
      + val_main_v68 (F := Ideal) a9 (ix2 r h)) (val_main_call3_v0 (F := Ideal) (ix2 r h)) = _
  rw [dot_hidden_apply, val_main_v68_apply, val_main_v67_apply, val_main_call3_v0_apply, val_main_call3_cst_apply, eb,
    ← hb1, sum_halves]
  subst hz
  simp only [cat_left, cat_right, ← hWa, ← hWb, Ideal.ofBits_def, Ideal.ofBits_zero_f32]
  rfl

/-- The classifier's stretch: for any two gathered endpoint arrays, with `Wa`, `Wb` the upper and lower halves of the first weight. -/
theorem cls_stage (xi xj : FVec Ideal S200000x128 .f32) (a8 : FVec Ideal S256x128 .f32) (a9 : FVec Ideal S128 .f32)
    (a10 : FVec Ideal S128x1 .f32) (a11 : FVec Ideal S1 .f32)
    (Wa Wb : FVec Ideal S128x128 .f32) (b1 : FVec Ideal S1x128 .f32) (b2 : FVec Ideal S1x1 .f32)
    (hWa : ∀ k h : Fin 128, Wa (ix2 k h) = a8 (ix2 (⟨k.val, by omega⟩ : Fin 256) h))
    (hWb : ∀ k h : Fin 128, Wb (ix2 k h) = a8 (ix2 (⟨128 + k.val, by omega⟩ : Fin 256) h))
    (hb1 : ∀ q : Fin 128, b1 (ix2 0 q) = a9 (ix1 q)) (hb2 : b2 (ix2 0 0) = a11 (ix1 0)) :
    addf (F := Ideal) (Host.dotGeneral (F := Ideal) dot_S200000x128_S128x1_S200000x1_1_0_0_1_n_n none
        (maximumf (F := Ideal) (addf (F := Ideal) (Host.dotGeneral (F := Ideal) dot_S200000x256_S256x128_S200000x128_1_0_0_1_n_n none
            (concatenate S200000x256 1 [⟨S200000x128, xi⟩, ⟨S200000x128, xj⟩] concatenates_S200000x128_S200000x128_S200000x256_d1) a8)
          (val_main_v68 (F := Ideal) a9)) (val_main_call3_v0 (F := Ideal))) a10) (val_main_v73 (F := Ideal) a11)
      = (Cert.GNN.clsFn (L := 200000) xi xj Wa Wb b1 a10 b2 : FVec Ideal S200000x1 .f32) := by
  funext i
  obtain ⟨r, c, rfl⟩ : ∃ (r : Fin 200000) (c : Fin 1), i = ix2 r c := ⟨i 0, i 1, eq_ix2 i⟩
  obtain rfl : c = 0 := Subsingleton.elim _ _
  have e2 : idx_main_v72 (idx_main_v73 (ix2 r (0 : Fin 1))) = ix1 0 := funext fun a => Fin.ext (by
    match a with | ⟨0, _⟩ => rfl)
  have hH := hidden_apply xi xj a8 a9 Wa Wb b1 hWa hWb hb1 r
  generalize maximumf (F := Ideal) (addf (F := Ideal) (Host.dotGeneral (F := Ideal) dot_S200000x256_S256x128_S200000x128_1_0_0_1_n_n none
            (concatenate S200000x256 1 [⟨S200000x128, xi⟩, ⟨S200000x128, xj⟩] concatenates_S200000x128_S200000x128_S200000x256_d1) a8)
          (val_main_v68 (F := Ideal) a9)) (val_main_call3_v0 (F := Ideal)) = H at hH ⊢
  show Host.dotGeneral (F := Ideal) dot_S200000x128_S128x1_S200000x1_1_0_0_1_n_n none H a10 (ix2 r 0)
      + val_main_v73 (F := Ideal) a11 (ix2 r 0) = _
  rw [dot_score_apply, val_main_v73_apply, val_main_v72_apply, e2, ← hb2]
  simp only [hH]
  rfl

end Cert.ReferenceIdeal.Stages

end
-- ==== Proof.Region0.lean ====
/-
  Region 0 (the first layer's messages): after the 80 blocks of 10000 edges are written back, the output array holds, row by row,
  `max (x_src + (attr · W + b)) 0` of the region's four input arrays as it found them.
-/
import proofs.«405423_j3315714752591_1_alg».proof.Proof.Gen.KernelIdeal.Frame
import proofs.«405423_j3315714752591_1_alg».proof.Proof.RowFns
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.ShloMosaic.ValueIdx
open scoped BigOperators

/-! ## The body's product of a block of attribute rows with the weight, at an index -/

theorem lhs_row (i : S10000x128.Idx) (q : dot_S10000x32_S32x128_S10000x128_1_0_0_1_n_n.contr.Idx) :
    (dot_S10000x32_S32x128_S10000x128_1_0_0_1_n_n.lhsIdx i q 0).val = (i 0).val := by
  unfold DotDims.lhsIdx
  rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
  rfl
theorem lhs_contr (i : S10000x128.Idx) (q : dot_S10000x32_S32x128_S10000x128_1_0_0_1_n_n.contr.Idx) :
    (dot_S10000x32_S32x128_S10000x128_1_0_0_1_n_n.lhsIdx i q 1).val = (q ⟨0, by decide⟩).val :=
  dot_S10000x32_S32x128_S10000x128_1_0_0_1_n_n.lhsIdx_val_of_single rfl i q
theorem rhs_contr (i : S10000x128.Idx) (q : dot_S10000x32_S32x128_S10000x128_1_0_0_1_n_n.contr.Idx) :
    (dot_S10000x32_S32x128_S10000x128_1_0_0_1_n_n.rhsIdx i q 0).val = (q ⟨0, by decide⟩).val :=
  dot_S10000x32_S32x128_S10000x128_1_0_0_1_n_n.rhsIdx_val_of_single rfl i q
theorem rhs_col (i : S10000x128.Idx) (q : dot_S10000x32_S32x128_S10000x128_1_0_0_1_n_n.contr.Idx) :
    (dot_S10000x32_S32x128_S10000x128_1_0_0_1_n_n.rhsIdx i q 1).val = (i 1).val := by
  unfold DotDims.rhsIdx
  rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
  rfl

/-- The product into the zero accumulator, at row `p` and column `q`: the sum over the 32 attribute columns. -/
theorem matmul_at (a : FVec Ideal S10000x32 .bf16) (w : FVec Ideal S32x128 .bf16) (p : Fin 10000) (q : Fin 128) :
    matmul dot_S10000x32_S32x128_S10000x128_1_0_0_1_n_n none a w (constant (F := Ideal) S10000x128 .f32 0x00000000#32) (ix2 p q)
      = ∑ k : Fin 32, a (ix2 p k) * w (ix2 k q) := by
  simp only [matmul]
  rw [Ideal.matmul_constant_zero_apply, ← Equiv.sum_comp (ValueIdx.contrEquiv1 dot_S10000x32_S32x128_S10000x128_1_0_0_1_n_n 32 rfl rfl).symm]
  refine Finset.sum_congr rfl fun k _ => ?_
  have hk := ValueIdx.contrEquiv1_symm_val dot_S10000x32_S32x128_S10000x128_1_0_0_1_n_n 32 rfl rfl k
  have el : dot_S10000x32_S32x128_S10000x128_1_0_0_1_n_n.lhsIdx (ix2 p q) ((ValueIdx.contrEquiv1 dot_S10000x32_S32x128_S10000x128_1_0_0_1_n_n 32 rfl rfl).symm k) = ix2 p k := funext fun a => Fin.ext (by
    match a with
    | ⟨0, _⟩ => exact lhs_row _ _
    | ⟨1, _⟩ => exact (lhs_contr _ _).trans hk)
  have er : dot_S10000x32_S32x128_S10000x128_1_0_0_1_n_n.rhsIdx (ix2 p q) ((ValueIdx.contrEquiv1 dot_S10000x32_S32x128_S10000x128_1_0_0_1_n_n 32 rfl rfl).symm k) = ix2 k q := funext fun a => Fin.ext (by
    match a with
    | ⟨0, _⟩ => exact (rhs_contr _ _).trans hk
    | ⟨1, _⟩ => exact rhs_col _ _)
  rw [el, er]

/-- The bias row broadcast down the block, at row `p` and column `q`. -/
theorem bias_at (b : FVec Ideal S1x128 .f32) (p : Fin 10000) (q : Fin 128) :
    broadcastTo S10000x128 b broadcasts_S1x128_S10000x128 (ix2 p q) = b (ix2 0 q) :=
  broadcastTo_apply b broadcasts_S1x128_S10000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-! ## The body's payload is the row-wise function of its four blocks -/

theorem pay_eq (x0 : Vec Ideal S10000x32 .f32) (x1 : Vec Ideal S10000x128 .f32) (x2 : Vec Ideal S32x128 .f32) (x3 : Vec Ideal S1x128 .f32) :
    k0_pay1 (F := Ideal) x0 x2 x3 x1 = Cert.GNN.msgFn (E := 10000) x0 x1 x2 x3 := by
  funext j
  obtain ⟨p, q, rfl⟩ : ∃ (p : Fin 10000) (q : Fin 128), j = ix2 p q := ⟨j 0, j 1, eq_ix2 j⟩
  unfold k0_pay1 Cert.GNN.msgFn
  simp only [shapeCast_self]
  rw [maximumf_apply, addf_apply, addf_apply, matmul_at, bias_at, broadcast_apply]
  simp only [truncf_apply, Scalar.ofBits, Ideal.ofBits_zero_f32]

/-! ## Rows of the arrays under the blocks -/

theorem hz : (![0, 0] : Fin 2 → Nat) = fun _ => 0 := funext fun a => by fin_cases a <;> rfl

/-- The printed index maps, decided once over the grid: at point `t` the attribute, source and output windows sit at
    block row `t`, column block 0; the weight's and the bias' windows are the whole arrays at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The function is row-wise: at a row of a block whose attribute and source rows are row `i 0` of the arrays, with the
    same weight and bias, it is the function of the arrays at row `i 0`. -/
theorem msgFn_rows (A0 : S800000x32.Idx → EReal) (A1 : S800000x128.Idx → EReal) (W : S32x128.Idx → EReal) (b : S1x128.Idx → EReal)
    (X0 : S10000x32.Idx → EReal) (X1 : S10000x128.Idx → EReal) (W' : S32x128.Idx → EReal) (b' : S1x128.Idx → EReal)
    (j : S10000x128.Idx) (i : S800000x128.Idx) (hc : (j 1).val = (i 1).val)
    (h0 : ∀ k : Fin 32, X0 (ix2 (j 0) k) = A0 (ix2 (i 0) k))
    (h1 : ∀ q : Fin 128, X1 (ix2 (j 0) q) = A1 (ix2 (i 0) q))
    (hW : ∀ y, W' y = W y) (hb : ∀ y, b' y = b y) :
    Cert.GNN.msgFn (E := 10000) X0 X1 W' b' j = Cert.GNN.msgFn (E := 800000) A0 A1 W b i := by
  obtain ⟨p, q, rfl⟩ : ∃ (p : Fin 10000) (q : Fin 128), j = ix2 p q := ⟨j 0, j 1, eq_ix2 j⟩
  obtain ⟨r, q', rfl⟩ : ∃ (r : Fin 800000) (q' : Fin 128), i = ix2 r q' := ⟨i 0, i 1, eq_ix2 i⟩
  obtain rfl : q = q' := Fin.ext hc
  show max (X1 (ix2 p q) + ((∑ k : Fin 32, X0 (ix2 p k) * W' (ix2 k q)) + b' (ix2 0 q))) 0
     = max (A1 (ix2 r q) + ((∑ k : Fin 32, A0 (ix2 r k) * W (ix2 k q)) + b (ix2 0 q))) 0
  simp only [show ∀ k : Fin 32, X0 (ix2 p k) = A0 (ix2 r k) from h0, show ∀ q : Fin 128, X1 (ix2 p q) = A1 (ix2 r q) from h1, hW, hb]

variable (V : (c : Dev nD) → (b : Ref sig .tc) → Buf (Elt Ideal) ((c : Thread nD τ).loc b))

/-- The attribute window's block at point `t`: rows `t * 10000 …` of the attribute array. -/
theorem attr_blk (c : Dev nD) (t : Fin cfg0.N) (y : S10000x32.Idx) (i : S800000x32.Idx)
    (h0 : (i 0).val = t.val * 10000 + (y 0).val) (h1 : (i 1).val = (y 1).val) :
    (iblk0 V c 0 t : Vec Ideal S10000x32 .f32) y = (V c main_arg2 : S800000x32.Idx → EReal) i := by
  obtain ⟨e0, e1, -⟩ := idx_facts t
  unfold iblk0
  rw [View.read_apply]
  show V c main_arg2 _ = V c main_arg2 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 32 + 1 * (y 1).val = (i 1).val; rw [e1, h1]; omega

/-- The source window's block at point `t`: rows `t * 10000 …` of the gathered source rows. -/
theorem src_blk (c : Dev nD) (t : Fin cfg0.N) (y : S10000x128.Idx) (i : S800000x128.Idx)
    (h0 : (i 0).val = t.val * 10000 + (y 0).val) (h1 : (i 1).val = (y 1).val) :
    (iblk0 V c 1 t : Vec Ideal S10000x128 .f32) y = (V c main_v10 : S800000x128.Idx → EReal) i := by
  obtain ⟨-, -, e0, e1, -⟩ := idx_facts t
  unfold iblk0
  rw [View.read_apply]
  show V c main_v10 _ = V c main_v10 _
  congr 1
  funext a
  apply Fin.ext
  match a with
  | ⟨0, _⟩ => show win0_1.index t (0 : Fin 2) * 10000 + 1 * (y 0).val = (i 0).val; rw [e0, h0]; omega
  | ⟨1, _⟩ => show win0_1.index t (1 : Fin 2) * 128 + 1 * (y 1).val = (i 1).val; rw [e1, h1]; omega

/-- The weight's window is the whole weight at every point. -/
theorem weight_blk (c : Dev nD) (t : Fin cfg0.N) (y : S32x128.Idx) :
    (iblk0 V c 2 t : Vec Ideal S32x128 .f32) y = (V c main_arg4 : S32x128.Idx → EReal) y := by
  obtain ⟨-, -, -, -, e0, e1, -⟩ := idx_facts t
  unfold iblk0
  rw [View.read_apply]
  show V c main_arg4 _ = V c main_arg4 _
  congr 1
  funext a
  apply Fin.ext
  match a with
  | ⟨0, _⟩ => show win0_2.index t (0 : Fin 2) * 32 + 1 * (y 0).val = (y 0).val; rw [e0]; omega
  | ⟨1, _⟩ => show win0_2.index t (1 : Fin 2) * 128 + 1 * (y 1).val = (y 1).val; rw [e1]; omega

/-- The bias' window is the whole bias row at every point. -/
theorem bias_blk (c : Dev nD) (t : Fin cfg0.N) (y : S1x128.Idx) :
    (iblk0 V c 3 t : Vec Ideal S1x128 .f32) y = (V c main_v4 : S1x128.Idx → EReal) y := by
  obtain ⟨-, -, -, -, -, -, e0, e1, -⟩ := idx_facts t
  unfold iblk0
  rw [View.read_apply]
  show V c main_v4 _ = V c main_v4 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-! ## What a point writes back, and the cover -/

/-- Point `t` writes back block `t` of the row-wise function of the four arrays. -/
theorem flushed_eq (c : Dev nD) (t : Fin cfg0.N) :
    (dat0 (F := Ideal) V c).flushed 4 t
      = ((cfg0.win 4).blk t).view.read (Elt Ideal)
          (Cert.GNN.msgFn (E := 800000) (V c main_arg2) (V c main_v10) (V c main_arg4) (V c main_v4) : Vec Ideal S800000x128 .f32) := by
  show (cfg0.win 4).cut (grid0.coords t) ((dat0 V c).after 4 t) = _
  rw [after0_4]
  unfold out0_4
  rw [View.canon_unit_zero hz]
  simp only [View.ld_unit_zero (S := S10000x32) hz, View.ld_unit_zero (S := S32x128) hz, View.ld_unit_zero (S := S1x128) hz,
    View.ld_unit_zero (S := S10000x128) hz]
  rw [pay_eq]
  obtain ⟨-, -, -, -, -, -, -, -, e0, e1⟩ := idx_facts t
  funext j
  show Cert.GNN.msgFn (E := 10000) (iblk0 V c 0 t) (iblk0 V c 1 t) (iblk0 V c 2 t) (iblk0 V c 3 t) j
     = Cert.GNN.msgFn (E := 800000) (V c main_arg2) (V c main_v10) (V c main_arg4) (V c main_v4) (((cfg0.win 4).blk t).view.emb j)
  refine msgFn_rows _ _ _ _ _ _ _ _ j _ ?_ (fun k => ?_) (fun q => ?_) (fun y => weight_blk V c t y) (fun y => bias_blk V c t y)
  · show (j 1).val = win0_4.index t (1 : Fin 2) * 128 + 1 * (j 1).val
    rw [e1]; omega
  · refine attr_blk V c t _ _ ?_ rfl
    show win0_4.index t (0 : Fin 2) * 10000 + 1 * (j 0).val = t.val * 10000 + (j 0).val
    rw [e0]; omega
  · refine src_blk V c t _ _ ?_ rfl
    show win0_4.index t (0 : Fin 2) * 10000 + 1 * (j 0).val = t.val * 10000 + (j 0).val
    rw [e0]; omega

/-- An index of the output array is in point `t`'s block iff each coordinate is in the block's range on its axis. -/
theorem mem_blk (t : Fin cfg0.N) (i : S800000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v11).slice (win0_4.rect t)).set ↔ _
  rw [View.set_slice_whole, Rect.mem_set_unit]
  exact Iff.rfl

/-- Row `r` of the output lies in the block of point `r / 10000`. -/
theorem cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; rw [e0, ht]; omega
  | ⟨1, _⟩ => show win0_4.index t (1 : Fin 2) * 128 ≤ (i 1).val ∧ (i 1).val < win0_4.index t (1 : Fin 2) * 128 + 128; rw [e1]; omega

/-- The region's output array after its last write-back, as one function of the arrays the region entered with. -/
theorem arr (c : Dev nD) :
    (dat0 (F := Ideal) V c).arrAt 4 cfg0.N
      = (Cert.GNN.msgFn (E := 800000) (V c main_arg2) (V c main_v10) (V c main_arg4) (V c main_v4) : Vec Ideal S800000x128 .f32) :=
  (dat0 (F := Ideal) V c).arrAt_eq_of_cover 4 _ (fun t _ => flushed_eq V c t) cover

end Cert.KernelIdeal.Region0

end
-- ==== Proof.Region1.lean ====
/-
  Region 1 (the first layer's node update): after the 10 blocks of 5000 nodes are written back, the output array holds, row by row,
  `max ((1 · x + agg) · W + b) 0` of the region's four input arrays as it found them.
-/
import proofs.«405423_j3315714752591_1_alg».proof.Proof.Gen.KernelIdeal.Frame
import proofs.«405423_j3315714752591_1_alg».proof.Proof.RowFns
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.ShloMosaic.ValueIdx
open scoped BigOperators

variable (V : (c : Dev nD) → (b : Ref sig .tc) → Buf (Elt Ideal) ((c : Thread nD τ).loc b))

/-! ## The block product's operand indices, axis by axis -/

theorem lhs_rows_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_rows_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_rows_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_rows_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times the weight, into the zero accumulator: entry `(r, h)` is `∑ k, a (r, k) · b (k, h)`. -/
theorem rows_times_weight (a : FVec Ideal S5000x128 .bf16) (b : FVec Ideal S128x128 .bf16) (j : S5000x128.Idx) :
    matmul dot_S5000x128_S128x128_S5000x128_1_0_0_1_n_n none a b (constant (F := Ideal) S5000x128 .f32 0x00000000#32) j
      = ∑ k : Fin 128, a (ix2 (j 0) k) * b (ix2 k (j 1)) := by
  show FloatOps.matmul dot_S5000x128_S128x128_S5000x128_1_0_0_1_n_n none a b (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k := funext fun a => Fin.ext (by
    match a with
    | ⟨0, _⟩ => exact lhs_rows_0 _ _
    | ⟨1, _⟩ => exact (lhs_rows_1 _ _).trans hk)
  have er : dot_S5000x128_S128x128_S5000x128_1_0_0_1_n_n.rhsIdx j ((ValueIdx.contrEquiv1 dot_S5000x128_S128x128_S5000x128_1_0_0_1_n_n 128 rfl rfl).symm k) = ix2 k (j 1) := funext fun a => Fin.ext (by
    match a with
    | ⟨0, _⟩ => exact (rhs_rows_0 _ _).trans hk
    | ⟨1, _⟩ => exact rhs_rows_1 _ _)
  rw [el, er]
  rfl

/-- The bias row spread over the block's rows reads the bias at the column. -/
theorem bias_spread (b : Vec Ideal S1x128 .f32) (j : S5000x128.Idx) :
    broadcastTo S5000x128 b broadcasts_S1x128_S5000x128 j = b (ix2 0 (j 1)) := by
  refine broadcastTo_apply b broadcasts_S1x128_S5000x128 j (ix2 0 (j 1)) (fun a => ?_)
  match a with
  | ⟨0, _⟩ => rfl
  | ⟨1, _⟩ => rfl

/-- The body's payload is the node update of its four blocks, row by row. -/
theorem pay_eq (x0 x1 : Vec Ideal S5000x128 .f32) (x2 : Vec Ideal S128x128 .f32) (x3 : Vec Ideal S1x128 .f32) :
    k1_pay1 (F := Ideal) x0 x1 x2 x3 = Cert.GNN.nodeFn (N := 5000) true x0 x1 x2 x3 := by
  funext j
  unfold k1_pay1 Cert.GNN.nodeFn
  simp only [maximumf_apply, addf_apply, rows_times_weight, bias_spread, truncf_apply, mulf_apply, broadcast_apply, shapeCast_self]
  rw [if_pos trivial, bias_spread x3 j]
  show max _ (Ideal.ofBits .f32 0x00000000#32) = _
  rw [Ideal.ofBits_zero_f32]
  rfl

/-! ## From the blocks to the array -/

theorem zero_offsets : (![0, 0] : Fin 2 → Nat) = fun _ => 0 := funext fun a => by fin_cases a <;> rfl

/-- Row-wise: the update at an index reads only that row of the features and of the aggregate, and that column of the
    weight and of the bias. -/
theorem nodeFn_rowwise {N M : Nat} (relu : Bool)
    (x agg : (⟨2, ![N, 128]⟩ : Shape).Idx → EReal) (x' agg' : (⟨2, ![M, 128]⟩ : Shape).Idx → EReal)
    (W W' : (⟨2, ![128, 128]⟩ : Shape).Idx → EReal) (b b' : (⟨2, ![1, 128]⟩ : Shape).Idx → EReal)
    (i : (⟨2, ![N, 128]⟩ : Shape).Idx) (i' : (⟨2, ![M, 128]⟩ : Shape).Idx)
    (hx : ∀ k : Fin 128, x (ix2 (i 0) k) = x' (ix2 (i' 0) k))
    (hagg : ∀ k : Fin 128, agg (ix2 (i 0) k) = agg' (ix2 (i' 0) k))
    (hW : ∀ k : Fin 128, W (ix2 k (i 1)) = W' (ix2 k (i' 1)))
    (hb : b (ix2 0 (i 1)) = b' (ix2 0 (i' 1))) :
    Cert.GNN.nodeFn relu x agg W b i = Cert.GNN.nodeFn relu x' agg' W' b' i' := by
  unfold Cert.GNN.nodeFn
  simp only [hx, hagg, hW, hb]

/-- The printed index maps over the grid: the two row windows move with the output's block, the weight's and the bias'
    windows stay at block zero, and the output's block of point `t` is block `t`. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the node update of the region's four input arrays. -/
theorem flushed_eq (c : Dev nD) (t : Fin cfg1.N) :
    (dat1 (F := Ideal) V c).flushed 4 t = ((cfg1.win 4).blk t).view.read (Elt Ideal)
      (Cert.GNN.nodeFn (N := 50000) true (V c main_arg0) (V c main_v14) (V c main_arg6) (V c main_v5) : Vec Ideal S50000x128 .f32) := by
  show (cfg1.win 4).cut (grid1.coords t) ((dat1 (F := Ideal) V c).after 4 t) = _
  rw [after1_4]
  unfold out1_4
  rw [View.canon_unit_zero zero_offsets]
  simp only [View.ld_unit_zero (S := S5000x128) zero_offsets, View.ld_unit_zero (S := S128x128) zero_offsets, View.ld_unit_zero (S := S1x128) zero_offsets]
  rw [pay_eq]
  obtain ⟨e00, e01, e10, e11, e20, e21, e30, e31, e40, e41⟩ := idx_facts t
  funext j
  show Cert.GNN.nodeFn (N := 5000) true (iblk1 V c 0 t) (iblk1 V c 1 t) (iblk1 V c 2 t) (iblk1 V c 3 t) j
    = Cert.GNN.nodeFn (N := 50000) true (V c main_arg0) (V c main_v14) (V c main_arg6) (V c main_v5) (((cfg1.win 4).blk t).view.emb j)
  refine nodeFn_rowwise true _ _ _ _ _ _ _ _ j _ (fun k => ?_) (fun k => ?_) (fun k => ?_) ?_
  · show V c main_arg0 (((cfg1.win 0).blk t).view.emb (ix2 (j 0) k)) = V c main_arg0 (ix2 ((((cfg1.win 4).blk t).view.emb j) 0) k)
    refine congrArg (V c main_arg0) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v14 (((cfg1.win 1).blk t).view.emb (ix2 (j 0) k)) = V c main_v14 (ix2 ((((cfg1.win 4).blk t).view.emb j) 0) k)
    refine congrArg (V c main_v14) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  · show V c main_arg6 (((cfg1.win 2).blk t).view.emb (ix2 k (j 1))) = V c main_arg6 (ix2 k ((((cfg1.win 4).blk t).view.emb j) 1))
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  · show V c main_v5 (((cfg1.win 3).blk t).view.emb (ix2 0 (j 1))) = V c main_v5 (ix2 0 ((((cfg1.win 4).blk t).view.emb j) 1))
    refine congrArg (V c main_v5) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v15).slice (win1_4.rect t)).set ↔ _
  rw [View.set_slice_whole, Rect.mem_set_unit]
  exact Iff.rfl

/-- Every row lies in the block of the point its row number divided by 5000 names. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e00, e01, e10, e11, e20, e21, e30, e31, e40, e41⟩ := idx_facts t
  have e40' : win1_4.index t (0 : Fin 2) = (i 0).val / 5000 := e40
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The region's output array after its last write-back, as one function of the arrays the region entered with. -/
theorem arr (c : Dev nD) :
    (dat1 (F := Ideal) V c).arrAt 4 cfg1.N
      = (Cert.GNN.nodeFn (N := 50000) true (V c main_arg0) (V c main_v14) (V c main_arg6) (V c main_v5) : Vec Ideal S50000x128 .f32) :=
  (dat1 (F := Ideal) V c).arrAt_eq_of_cover 4 _ (fun t _ => flushed_eq V c t) cover

end Cert.KernelIdeal.Region1

end
-- ==== Proof.Chain1.lean ====
/-
  The first layer, read off the kernel program's boundary contents: the filled take of `x` at the source row is the plain gather
  (the indices are in range), region 0 turns it into the messages, the host scatter-add aggregates them at the destination row
  exactly as the other program does, and region 1 updates the nodes. At the exit of region 1 the node array is the other
  program's first-layer value of the same arguments.
-/
import proofs.«405423_j3315714752591_1_alg».proof.Proof.ChainDefs
import proofs.«405423_j3315714752591_1_alg».proof.Proof.RefStages
import proofs.«405423_j3315714752591_1_alg».proof.Proof.Region0
import proofs.«405423_j3315714752591_1_alg».proof.Proof.Region1
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Chain

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg) (c : Dev nD)

/-- A buffer that no operation of a host stretch writes reads after the stretch as before it. -/
local macro "host_skip " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Contents moved to a typed reference's buffer type and back are the contents. -/
private theorem ofBuf_toBuf {T : BufTy} (x : StableHlo.TRef sig T) (v : T.Contents (Elt Ideal)) :
    x.ofBuf (x.toBuf v) = v := by
  obtain ⟨r, rfl, _, _⟩ := x
  rfl

/-! ### After the first host stretch: the two index rows and the two bias rows -/

private theorem W1_v1 : W1 m ρ c (Proc.devRef .tc main_v1) = srcRow m c := by
  show StableHlo.after hostOps0 _ (Proc.devRef .tc main_v1) = _
  after_results
  rfl

private theorem W1_v3 : W1 m ρ c (Proc.devRef .tc main_v3) = Cert.ReferenceIdeal.Read.val_main_v3 (F := Ideal) (A1 m c) := by
  show StableHlo.after hostOps0 _ (Proc.devRef .tc main_v3) = _
  after_results
  rfl

private theorem W1_v4 : W1 m ρ c (Proc.devRef .tc main_v4) = shapeCast _ (A5 m c) shapeCasts_S128_S1x128 := by
  show StableHlo.after hostOps0 _ (Proc.devRef .tc main_v4) = _
  after_results
  rfl

private theorem W1_v5 : W1 m ρ c (Proc.devRef .tc main_v5) = shapeCast _ (A7 m c) shapeCasts_S128_S1x128 := by
  show StableHlo.after hostOps0 _ (Proc.devRef .tc main_v5) = _
  after_results
  rfl

private theorem W1_arg0 : W1 m ρ c (Proc.devRef .tc main_arg0) = A0 m c := by
  show StableHlo.after hostOps0 (W0 m ρ c) (Proc.devRef .tc main_arg0) = W0 m ρ c (Proc.devRef .tc main_arg0)
  host_skip hostOps0

/-! ### The first take: filled, hence plain, hence the other program's gather -/

/-- The take stretch from any contents: the filled take of what it finds at the table and at the source row. -/
private theorem take0_stretch (V : Valuation τ sig (Elt Ideal)) :
    StableHlo.after hostOps0_1 V (Proc.devRef .tc main_v10)
      = FilledTake.takeE (V (Proc.devRef .tc main_arg0)) (V (Proc.devRef .tc main_v1)) := by
  after_results_simp
  simp only [ofBuf_toBuf]
  have e0 : (StableHlo.TRef.of main_arg0 : StableHlo.TRef sig ⟨S50000x128, .f32⟩).ofBuf (V (Proc.devRef .tc main_arg0))
      = (V (Proc.devRef .tc main_arg0) : Vec Ideal S50000x128 .f32) := rfl
  have e1 : (StableHlo.TRef.of main_v1 : StableHlo.TRef sig ⟨S800000, .i32⟩).ofBuf (V (Proc.devRef .tc main_v1))
      = (V (Proc.devRef .tc main_v1) : IVec S800000 32) := rfl
  have e2 : ∀ v : Vec Ideal S800000x128 .f32,
      (StableHlo.TRef.of main_v10 : StableHlo.TRef sig ⟨S800000x128, .f32⟩).toBuf v = v := fun v => rfl
  rw [e0, e1, e2]
  unfold FilledTake.takeE FilledTake.startsE
  rfl

private theorem W2_v10 (h : InRange m c) :
    W2 m ρ c (Proc.devRef .tc main_v10) = Cert.ReferenceIdeal.Read.val_main_v14 (F := Ideal) (A0 m c) (A1 m c) := by
  have e : W2 m ρ c (Proc.devRef .tc main_v10)
      = FilledTake.takeE (W1 m ρ c (Proc.devRef .tc main_arg0)) (W1 m ρ c (Proc.devRef .tc main_v1)) :=
    take0_stretch (W1 m ρ c)
  rw [e, W1_arg0, W1_v1, FilledTake.takeE_eq _ _ h.src]
  unfold Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_c Cert.ReferenceIdeal.Read.val_main_c_0
    FilledTake.startsE
  rfl

/-! ### Region 0's other inputs, read back to the launch memory and to the first host stretch -/

private theorem W2_arg2 : W2 m ρ c (Proc.devRef .tc main_arg2) = A2 m c :=
  calc W2 m ρ c (Proc.devRef .tc main_arg2)
    _ = W1 m ρ c (Proc.devRef .tc main_arg2) := by host_skip hostOps0_1
    _ = W0 m ρ c (Proc.devRef .tc main_arg2) := by host_skip hostOps0
    _ = A2 m c := rfl

private theorem W2_arg4 : W2 m ρ c (Proc.devRef .tc main_arg4) = A4 m c :=
  calc W2 m ρ c (Proc.devRef .tc main_arg4)
    _ = W1 m ρ c (Proc.devRef .tc main_arg4) := by host_skip hostOps0_1
    _ = W0 m ρ c (Proc.devRef .tc main_arg4) := by host_skip hostOps0
    _ = A4 m c := rfl

private theorem W2_v4 : W2 m ρ c (Proc.devRef .tc main_v4) = shapeCast _ (A5 m c) shapeCasts_S128_S1x128 :=
  calc W2 m ρ c (Proc.devRef .tc main_v4)
    _ = W1 m ρ c (Proc.devRef .tc main_v4) := by host_skip hostOps0_1
    _ = shapeCast _ (A5 m c) shapeCasts_S128_S1x128 := W1_v4 m ρ c

/-! ### Region 0: the messages -/

private theorem W3_v11 (h : InRange m c) :
    W3 m ρ c (Proc.devRef .tc main_v11)
      = Cert.ReferenceIdeal.Read.val_main_v16 (F := Ideal) (A0 m c) (A1 m c) (A2 m c) (A4 m c) (A5 m c) := by
  have e : W3 m ρ c (Proc.devRef .tc main_v11)
      = (Cert.GNN.msgFn (E := 800000) (W2 m ρ c (Proc.devRef .tc main_arg2)) (W2 m ρ c (Proc.devRef .tc main_v10))
          (W2 m ρ c (Proc.devRef .tc main_arg4)) (W2 m ρ c (Proc.devRef .tc main_v4)) : Vec Ideal S800000x128 .f32) :=
    (W3_arr m ρ c 4).trans (Cert.KernelIdeal.Region0.arr (V2 m ρ) c)
  rw [e, W2_arg2, W2_v10 m ρ c h, W2_arg4, W2_v4]
  unfold Cert.ReferenceIdeal.Read.val_main_v16 Cert.ReferenceIdeal.Read.val_main_v15
  exact (Cert.ReferenceIdeal.Stages.msg_stage _ (A2 m c) (A4 m c) (A5 m c) _
    (fun q => shapeCast_a_1a_apply (A5 m c) shapeCasts_S128_S1x128 0 q)).symm

/-! ### The scatter-add: the messages summed at the destination row -/

private theorem W3_v3 : W3 m ρ c (Proc.devRef .tc main_v3) = Cert.ReferenceIdeal.Read.val_main_v3 (F := Ideal) (A1 m c) :=
  calc W3 m ρ c (Proc.devRef .tc main_v3)
    _ = W2 m ρ c (Proc.devRef .tc main_v3) := W3_of_ne m ρ c main_v3 (by decide)
    _ = W1 m ρ c (Proc.devRef .tc main_v3) := by host_skip hostOps0_1
    _ = Cert.ReferenceIdeal.Read.val_main_v3 (F := Ideal) (A1 m c) := W1_v3 m ρ c

/-- The scatter-add stretch from any contents: the messages it finds, added into a zero table at the destination row it finds. -/
private theorem scatter0_stretch (V : Valuation τ sig (Elt Ideal)) :
    StableHlo.after hostOps1 V (Proc.devRef .tc main_v14)
      = (Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_v3) : IVec S800000 32))
          (V (Proc.devRef .tc main_v11) : Vec Ideal S800000x128 .f32) : Vec Ideal S50000x128 .f32) := by
  after_results

private theorem W4_v14 (h : InRange m c) :
    W4 m ρ c (Proc.devRef .tc main_v14)
      = Cert.ReferenceIdeal.Read.val_main_v19 (F := Ideal) (A0 m c) (A1 m c) (A2 m c) (A4 m c) (A5 m c) := by
  have e := scatter0_stretch (W3 m ρ c)
  rw [W3_v3, W3_v11 m ρ c h] at e
  refine e.trans ?_
  unfold Cert.ReferenceIdeal.Read.val_main_v19 Cert.ReferenceIdeal.Read.val_main_v18 Cert.ReferenceIdeal.Read.val_main_v17
    Cert.ReferenceIdeal.Read.val_main_cst
  rfl

/-! ### Region 1's other inputs -/

private theorem W4_arg0 : W4 m ρ c (Proc.devRef .tc main_arg0) = A0 m c :=
  calc W4 m ρ c (Proc.devRef .tc main_arg0)
    _ = W3 m ρ c (Proc.devRef .tc main_arg0) := by host_skip hostOps1
    _ = W2 m ρ c (Proc.devRef .tc main_arg0) := W3_of_ne m ρ c main_arg0 (by decide)
    _ = W1 m ρ c (Proc.devRef .tc main_arg0) := by host_skip hostOps0_1
    _ = A0 m c := W1_arg0 m ρ c

private theorem W4_arg6 : W4 m ρ c (Proc.devRef .tc main_arg6) = A6 m c :=
  calc W4 m ρ c (Proc.devRef .tc main_arg6)
    _ = W3 m ρ c (Proc.devRef .tc main_arg6) := by host_skip hostOps1
    _ = W2 m ρ c (Proc.devRef .tc main_arg6) := W3_of_ne m ρ c main_arg6 (by decide)
    _ = W1 m ρ c (Proc.devRef .tc main_arg6) := by host_skip hostOps0_1
    _ = W0 m ρ c (Proc.devRef .tc main_arg6) := by host_skip hostOps0
    _ = A6 m c := rfl

private theorem W4_v5 : W4 m ρ c (Proc.devRef .tc main_v5) = shapeCast _ (A7 m c) shapeCasts_S128_S1x128 :=
  calc W4 m ρ c (Proc.devRef .tc main_v5)
    _ = W3 m ρ c (Proc.devRef .tc main_v5) := by host_skip hostOps1
    _ = W2 m ρ c (Proc.devRef .tc main_v5) := W3_of_ne m ρ c main_v5 (by decide)
    _ = W1 m ρ c (Proc.devRef .tc main_v5) := by host_skip hostOps0_1
    _ = shapeCast _ (A7 m c) shapeCasts_S128_S1x128 := W1_v5 m ρ c

/-! ### Region 1: the node update -/

/-- After region 1 the kernel program's node array holds the first layer's output, as the other program computes it. -/
theorem layer1 (h : InRange m c) :
    W5 m ρ c (Proc.devRef .tc main_v15) = Cert.ReferenceIdeal.Read.val_main_v27 (F := Ideal) (A0 m c) (A1 m c) (A2 m c) (A4 m c) (A5 m c) (A6 m c) (A7 m c) := by
  have e : W5 m ρ c (Proc.devRef .tc main_v15)
      = (Cert.GNN.nodeFn (N := 50000) true (W4 m ρ c (Proc.devRef .tc main_arg0)) (W4 m ρ c (Proc.devRef .tc main_v14))
          (W4 m ρ c (Proc.devRef .tc main_arg6)) (W4 m ρ c (Proc.devRef .tc main_v5)) : Vec Ideal S50000x128 .f32) :=
    (W5_arr m ρ c 4).trans (Cert.KernelIdeal.Region1.arr (V4 m ρ) c)
  rw [e, W4_arg0, W4_v14 m ρ c h, W4_arg6, W4_v5]
  unfold Cert.ReferenceIdeal.Read.val_main_v27 Cert.ReferenceIdeal.Read.val_main_v26 Cert.ReferenceIdeal.Read.val_main_v23
    Cert.ReferenceIdeal.Read.val_main_v22 Cert.ReferenceIdeal.Read.val_main_v21
  exact (Cert.ReferenceIdeal.Stages.node_stage_relu (A0 m c) _ (A6 m c) (A7 m c) _
    (fun q => shapeCast_a_1a_apply (A7 m c) shapeCasts_S128_S1x128 0 q)).symm

end Cert.KernelIdeal.Chain

end
-- ==== Proof.Region2.lean ====
/-
  Region 2 (the second layer's messages): the same function of its own four input arrays as region 0's.
-/
import proofs.«405423_j3315714752591_1_alg».proof.Proof.Gen.KernelIdeal.Frame
import proofs.«405423_j3315714752591_1_alg».proof.Proof.RowFns
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen Idealize.ShloMosaic Idealize.ShloMosaic.TcCoe Idealize.ShloMosaic.ValueIdx
open scoped BigOperators

/-! ## The body's product of a block of attribute rows with the weight, at an index -/

theorem lhs_row (i : S10000x128.Idx) (q : dot_S10000x32_S32x128_S10000x128_1_0_0_1_n_n.contr.Idx) :
    (dot_S10000x32_S32x128_S10000x128_1_0_0_1_n_n.lhsIdx i q 0).val = (i 0).val := by
  unfold DotDims.lhsIdx
  rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
  rfl
theorem lhs_contr (i : S10000x128.Idx) (q : dot_S10000x32_S32x128_S10000x128_1_0_0_1_n_n.contr.Idx) :
    (dot_S10000x32_S32x128_S10000x128_1_0_0_1_n_n.lhsIdx i q 1).val = (q ⟨0, by decide⟩).val :=
  dot_S10000x32_S32x128_S10000x128_1_0_0_1_n_n.lhsIdx_val_of_single rfl i q
theorem rhs_contr (i : S10000x128.Idx) (q : dot_S10000x32_S32x128_S10000x128_1_0_0_1_n_n.contr.Idx) :
    (dot_S10000x32_S32x128_S10000x128_1_0_0_1_n_n.rhsIdx i q 0).val = (q ⟨0, by decide⟩).val :=
  dot_S10000x32_S32x128_S10000x128_1_0_0_1_n_n.rhsIdx_val_of_single rfl i q
theorem rhs_col (i : S10000x128.Idx) (q : dot_S10000x32_S32x128_S10000x128_1_0_0_1_n_n.contr.Idx) :
    (dot_S10000x32_S32x128_S10000x128_1_0_0_1_n_n.rhsIdx i q 1).val = (i 1).val := by
  unfold DotDims.rhsIdx
  rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
  rfl

/-- The product into the zero accumulator, at row `p` and column `q`: the sum over the 32 attribute columns. -/
theorem matmul_at (a : FVec Ideal S10000x32 .bf16) (w : FVec Ideal S32x128 .bf16) (p : Fin 10000) (q : Fin 128) :
    matmul dot_S10000x32_S32x128_S10000x128_1_0_0_1_n_n none a w (constant (F := Ideal) S10000x128 .f32 0x00000000#32) (ix2 p q)
      = ∑ k : Fin 32, a (ix2 p k) * w (ix2 k q) := by
  simp only [matmul]
  rw [Ideal.matmul_constant_zero_apply, ← Equiv.sum_comp (ValueIdx.contrEquiv1 dot_S10000x32_S32x128_S10000x128_1_0_0_1_n_n 32 rfl rfl).symm]
  refine Finset.sum_congr rfl fun k _ => ?_
  have hk := ValueIdx.contrEquiv1_symm_val dot_S10000x32_S32x128_S10000x128_1_0_0_1_n_n 32 rfl rfl k
  have el : dot_S10000x32_S32x128_S10000x128_1_0_0_1_n_n.lhsIdx (ix2 p q) ((ValueIdx.contrEquiv1 dot_S10000x32_S32x128_S10000x128_1_0_0_1_n_n 32 rfl rfl).symm k) = ix2 p k := funext fun a => Fin.ext (by
    match a with
    | ⟨0, _⟩ => exact lhs_row _ _
    | ⟨1, _⟩ => exact (lhs_contr _ _).trans hk)
  have er : dot_S10000x32_S32x128_S10000x128_1_0_0_1_n_n.rhsIdx (ix2 p q) ((ValueIdx.contrEquiv1 dot_S10000x32_S32x128_S10000x128_1_0_0_1_n_n 32 rfl rfl).symm k) = ix2 k q := funext fun a => Fin.ext (by
    match a with
    | ⟨0, _⟩ => exact (rhs_contr _ _).trans hk
    | ⟨1, _⟩ => exact rhs_col _ _)
  rw [el, er]

/-- The bias row broadcast down the block, at row `p` and column `q`. -/
theorem bias_at (b : FVec Ideal S1x128 .f32) (p : Fin 10000) (q : Fin 128) :
    broadcastTo S10000x128 b broadcasts_S1x128_S10000x128 (ix2 p q) = b (ix2 0 q) :=
  broadcastTo_apply b broadcasts_S1x128_S10000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-! ## The body's payload is the row-wise function of its four blocks -/

theorem pay_eq (x0 : Vec Ideal S10000x32 .f32) (x1 : Vec Ideal S10000x128 .f32) (x2 : Vec Ideal S32x128 .f32) (x3 : Vec Ideal S1x128 .f32) :
    k2_pay1 (F := Ideal) x0 x2 x3 x1 = Cert.GNN.msgFn (E := 10000) x0 x1 x2 x3 := by
  funext j
  obtain ⟨p, q, rfl⟩ : ∃ (p : Fin 10000) (q : Fin 128), j = ix2 p q := ⟨j 0, j 1, eq_ix2 j⟩
  unfold k2_pay1 Cert.GNN.msgFn
  simp only [shapeCast_self]
  rw [maximumf_apply, addf_apply, addf_apply, matmul_at, bias_at, broadcast_apply]
  simp only [truncf_apply, Scalar.ofBits, Ideal.ofBits_zero_f32]

/-! ## Rows of the arrays under the blocks -/

theorem hz : (![0, 0] : Fin 2 → Nat) = fun _ => 0 := funext fun a => by fin_cases a <;> rfl

/-- The printed index maps, decided once over the grid: at point `t` the attribute, source and output windows sit at
    block row `t`, column block 0; the weight's and the bias' windows are the whole arrays at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The function is row-wise: at a row of a block whose attribute and source rows are row `i 0` of the arrays, with the
    same weight and bias, it is the function of the arrays at row `i 0`. -/
theorem msgFn_rows (A0 : S800000x32.Idx → EReal) (A1 : S800000x128.Idx → EReal) (W : S32x128.Idx → EReal) (b : S1x128.Idx → EReal)
    (X0 : S10000x32.Idx → EReal) (X1 : S10000x128.Idx → EReal) (W' : S32x128.Idx → EReal) (b' : S1x128.Idx → EReal)
    (j : S10000x128.Idx) (i : S800000x128.Idx) (hc : (j 1).val = (i 1).val)
    (h0 : ∀ k : Fin 32, X0 (ix2 (j 0) k) = A0 (ix2 (i 0) k))
    (h1 : ∀ q : Fin 128, X1 (ix2 (j 0) q) = A1 (ix2 (i 0) q))
    (hW : ∀ y, W' y = W y) (hb : ∀ y, b' y = b y) :
    Cert.GNN.msgFn (E := 10000) X0 X1 W' b' j = Cert.GNN.msgFn (E := 800000) A0 A1 W b i := by
  obtain ⟨p, q, rfl⟩ : ∃ (p : Fin 10000) (q : Fin 128), j = ix2 p q := ⟨j 0, j 1, eq_ix2 j⟩
  obtain ⟨r, q', rfl⟩ : ∃ (r : Fin 800000) (q' : Fin 128), i = ix2 r q' := ⟨i 0, i 1, eq_ix2 i⟩
  obtain rfl : q = q' := Fin.ext hc
  show max (X1 (ix2 p q) + ((∑ k : Fin 32, X0 (ix2 p k) * W' (ix2 k q)) + b' (ix2 0 q))) 0
     = max (A1 (ix2 r q) + ((∑ k : Fin 32, A0 (ix2 r k) * W (ix2 k q)) + b (ix2 0 q))) 0
  simp only [show ∀ k : Fin 32, X0 (ix2 p k) = A0 (ix2 r k) from h0, show ∀ q : Fin 128, X1 (ix2 p q) = A1 (ix2 r q) from h1, hW, hb]

variable (V : (c : Dev nD) → (b : Ref sig .tc) → Buf (Elt Ideal) ((c : Thread nD τ).loc b))

/-- The attribute window's block at point `t`: rows `t * 10000 …` of the attribute array. -/
theorem attr_blk (c : Dev nD) (t : Fin cfg2.N) (y : S10000x32.Idx) (i : S800000x32.Idx)
    (h0 : (i 0).val = t.val * 10000 + (y 0).val) (h1 : (i 1).val = (y 1).val) :
    (iblk2 V c 0 t : Vec Ideal S10000x32 .f32) y = (V c main_arg2 : S800000x32.Idx → EReal) i := by
  obtain ⟨e0, e1, -⟩ := idx_facts t
  unfold iblk2
  rw [View.read_apply]
  show V c main_arg2 _ = V c main_arg2 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 32 + 1 * (y 1).val = (i 1).val; rw [e1, h1]; omega

/-- The source window's block at point `t`: rows `t * 10000 …` of the gathered source rows. -/
theorem src_blk (c : Dev nD) (t : Fin cfg2.N) (y : S10000x128.Idx) (i : S800000x128.Idx)
    (h0 : (i 0).val = t.val * 10000 + (y 0).val) (h1 : (i 1).val = (y 1).val) :
    (iblk2 V c 1 t : Vec Ideal S10000x128 .f32) y = (V c main_v16 : S800000x128.Idx → EReal) i := by
  obtain ⟨-, -, e0, e1, -⟩ := idx_facts t
  unfold iblk2
  rw [View.read_apply]
  show V c main_v16 _ = V c main_v16 _
  congr 1
  funext a
  apply Fin.ext
  match a with
  | ⟨0, _⟩ => show win2_1.index t (0 : Fin 2) * 10000 + 1 * (y 0).val = (i 0).val; rw [e0, h0]; omega
  | ⟨1, _⟩ => show win2_1.index t (1 : Fin 2) * 128 + 1 * (y 1).val = (i 1).val; rw [e1, h1]; omega

/-- The weight's window is the whole weight at every point. -/
theorem weight_blk (c : Dev nD) (t : Fin cfg2.N) (y : S32x128.Idx) :
    (iblk2 V c 2 t : Vec Ideal S32x128 .f32) y = (V c main_arg4 : S32x128.Idx → EReal) y := by
  obtain ⟨-, -, -, -, e0, e1, -⟩ := idx_facts t
  unfold iblk2
  rw [View.read_apply]
  show V c main_arg4 _ = V c main_arg4 _
  congr 1
  funext a
  apply Fin.ext
  match a with
  | ⟨0, _⟩ => show win2_2.index t (0 : Fin 2) * 32 + 1 * (y 0).val = (y 0).val; rw [e0]; omega
  | ⟨1, _⟩ => show win2_2.index t (1 : Fin 2) * 128 + 1 * (y 1).val = (y 1).val; rw [e1]; omega

/-- The bias' window is the whole bias row at every point. -/
theorem bias_blk (c : Dev nD) (t : Fin cfg2.N) (y : S1x128.Idx) :
    (iblk2 V c 3 t : Vec Ideal S1x128 .f32) y = (V c main_v4 : S1x128.Idx → EReal) y := by
  obtain ⟨-, -, -, -, -, -, e0, e1, -⟩ := idx_facts t
  unfold iblk2
  rw [View.read_apply]
  show V c main_v4 _ = V c main_v4 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-! ## What a point writes back, and the cover -/

/-- Point `t` writes back block `t` of the row-wise function of the four arrays. -/
theorem flushed_eq (c : Dev nD) (t : Fin cfg2.N) :
    (dat2 (F := Ideal) V c).flushed 4 t
      = ((cfg2.win 4).blk t).view.read (Elt Ideal)
          (Cert.GNN.msgFn (E := 800000) (V c main_arg2) (V c main_v16) (V c main_arg4) (V c main_v4) : Vec Ideal S800000x128 .f32) := by
  show (cfg2.win 4).cut (grid2.coords t) ((dat2 V c).after 4 t) = _
  rw [after2_4]
  unfold out2_4
  rw [View.canon_unit_zero hz]
  simp only [View.ld_unit_zero (S := S10000x32) hz, View.ld_unit_zero (S := S32x128) hz, View.ld_unit_zero (S := S1x128) hz,
    View.ld_unit_zero (S := S10000x128) hz]
  rw [pay_eq]
  obtain ⟨-, -, -, -, -, -, -, -, e0, e1⟩ := idx_facts t
  funext j
  show Cert.GNN.msgFn (E := 10000) (iblk2 V c 0 t) (iblk2 V c 1 t) (iblk2 V c 2 t) (iblk2 V c 3 t) j
     = Cert.GNN.msgFn (E := 800000) (V c main_arg2) (V c main_v16) (V c main_arg4) (V c main_v4) (((cfg2.win 4).blk t).view.emb j)
  refine msgFn_rows _ _ _ _ _ _ _ _ j _ ?_ (fun k => ?_) (fun q => ?_) (fun y => weight_blk V c t y) (fun y => bias_blk V c t y)
  · show (j 1).val = win2_4.index t (1 : Fin 2) * 128 + 1 * (j 1).val
    rw [e1]; omega
  · refine attr_blk V c t _ _ ?_ rfl
    show win2_4.index t (0 : Fin 2) * 10000 + 1 * (j 0).val = t.val * 10000 + (j 0).val
    rw [e0]; omega
  · refine src_blk V c t _ _ ?_ rfl
    show win2_4.index t (0 : Fin 2) * 10000 + 1 * (j 0).val = t.val * 10000 + (j 0).val
    rw [e0]; omega

/-- An index of the output array is in point `t`'s block iff each coordinate is in the block's range on its axis. -/
theorem mem_blk (t : Fin cfg2.N) (i : S800000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v17).slice (win2_4.rect t)).set ↔ _
  rw [View.set_slice_whole, Rect.mem_set_unit]
  exact Iff.rfl

/-- Row `r` of the output lies in the block of point `r / 10000`. -/
theorem cover (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  obtain ⟨t, ht⟩ : ∃ t : Fin cfg2.N, t.val = (i 0).val / 10000 :=
    ⟨⟨(i 0).val / 10000, by show _ < grid2.N; rw [N_2]; omega⟩, rfl⟩
  obtain ⟨-, -, -, -, -, -, -, -, e0, e1⟩ := idx_facts t
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; rw [e0, ht]; omega
  | ⟨1, _⟩ => show win2_4.index t (1 : Fin 2) * 128 ≤ (i 1).val ∧ (i 1).val < win2_4.index t (1 : Fin 2) * 128 + 128; rw [e1]; omega

/-- The region's output array after its last write-back, as one function of the arrays the region entered with. -/
theorem arr (c : Dev nD) :
    (dat2 (F := Ideal) V c).arrAt 4 cfg2.N
      = (Cert.GNN.msgFn (E := 800000) (V c main_arg2) (V c main_v16) (V c main_arg4) (V c main_v4) : Vec Ideal S800000x128 .f32) :=
  (dat2 (F := Ideal) V c).arrAt_eq_of_cover 4 _ (fun t _ => flushed_eq V c t) cover

end Cert.KernelIdeal.Region2

end
-- ==== Proof.Region3.lean ====
/-
  Region 3 (the second layer's node update, no clipping): after the 10 blocks of 5000 nodes are written back, the output array holds,
  row by row, `(1 · x + agg) · W + b` of the region's four input arrays as it found them.
-/
import proofs.«405423_j3315714752591_1_alg».proof.Proof.Gen.KernelIdeal.Frame
import proofs.«405423_j3315714752591_1_alg».proof.Proof.RowFns
import Idealize.ShloMosaic.Lib.Pipeline.Value
import Idealize.ShloMosaic.Lib.ValueIdx
import Idealize.ShloMosaic.PureOps.Ideal.Laws

noncomputable section

namespace Cert.KernelIdeal.Region3

open Cert.KernelIdeal Cert.KernelIdeal.Gen Idealize.ShloMosaic Idealize.ShloMosaic.TcCoe Idealize.ShloMosaic.ValueIdx
open scoped BigOperators

variable (V : (c : Dev nD) → (b : Ref sig .tc) → Buf (Elt Ideal) ((c : Thread nD τ).loc b))

/-! ## The block product's operand indices, axis by axis -/

theorem lhs_rows_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_rows_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_rows_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_rows_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times the weight, into the zero accumulator: entry `(r, h)` is `∑ k, a (r, k) · b (k, h)`. -/
theorem rows_times_weight (a : FVec Ideal S5000x128 .bf16) (b : FVec Ideal S128x128 .bf16) (j : S5000x128.Idx) :
    matmul dot_S5000x128_S128x128_S5000x128_1_0_0_1_n_n none a b (constant (F := Ideal) S5000x128 .f32 0x00000000#32) j
      = ∑ k : Fin 128, a (ix2 (j 0) k) * b (ix2 k (j 1)) := by
  show FloatOps.matmul dot_S5000x128_S128x128_S5000x128_1_0_0_1_n_n none a b (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k := funext fun a => Fin.ext (by
    match a with
    | ⟨0, _⟩ => exact lhs_rows_0 _ _
    | ⟨1, _⟩ => exact (lhs_rows_1 _ _).trans hk)
  have er : dot_S5000x128_S128x128_S5000x128_1_0_0_1_n_n.rhsIdx j ((ValueIdx.contrEquiv1 dot_S5000x128_S128x128_S5000x128_1_0_0_1_n_n 128 rfl rfl).symm k) = ix2 k (j 1) := funext fun a => Fin.ext (by
    match a with
    | ⟨0, _⟩ => exact (rhs_rows_0 _ _).trans hk
    | ⟨1, _⟩ => exact rhs_rows_1 _ _)
  rw [el, er]
  rfl

/-- The bias row spread over the block's rows reads the bias at the column. -/
theorem bias_spread (b : Vec Ideal S1x128 .f32) (j : S5000x128.Idx) :
    broadcastTo S5000x128 b broadcasts_S1x128_S5000x128 j = b (ix2 0 (j 1)) := by
  refine broadcastTo_apply b broadcasts_S1x128_S5000x128 j (ix2 0 (j 1)) (fun a => ?_)
  match a with
  | ⟨0, _⟩ => rfl
  | ⟨1, _⟩ => rfl

/-- The body's payload is the unclipped node update of its four blocks, row by row. -/
theorem pay_eq (x0 x1 : Vec Ideal S5000x128 .f32) (x2 : Vec Ideal S128x128 .f32) (x3 : Vec Ideal S1x128 .f32) :
    k3_pay1 (F := Ideal) x0 x1 x2 x3 = Cert.GNN.nodeFn (N := 5000) false x0 x1 x2 x3 := by
  funext j
  unfold k3_pay1 Cert.GNN.nodeFn
  simp only [addf_apply, rows_times_weight, truncf_apply, mulf_apply, broadcast_apply, shapeCast_self, Bool.false_eq_true, ↓reduceIte]
  rw [bias_spread x3 j]
  rfl

/-! ## From the blocks to the array -/

theorem zero_offsets : (![0, 0] : Fin 2 → Nat) = fun _ => 0 := funext fun a => by fin_cases a <;> rfl

/-- Row-wise: the update at an index reads only that row of the features and of the aggregate, and that column of the
    weight and of the bias. -/
theorem nodeFn_rowwise {N M : Nat} (relu : Bool)
    (x agg : (⟨2, ![N, 128]⟩ : Shape).Idx → EReal) (x' agg' : (⟨2, ![M, 128]⟩ : Shape).Idx → EReal)
    (W W' : (⟨2, ![128, 128]⟩ : Shape).Idx → EReal) (b b' : (⟨2, ![1, 128]⟩ : Shape).Idx → EReal)
    (i : (⟨2, ![N, 128]⟩ : Shape).Idx) (i' : (⟨2, ![M, 128]⟩ : Shape).Idx)
    (hx : ∀ k : Fin 128, x (ix2 (i 0) k) = x' (ix2 (i' 0) k))
    (hagg : ∀ k : Fin 128, agg (ix2 (i 0) k) = agg' (ix2 (i' 0) k))
    (hW : ∀ k : Fin 128, W (ix2 k (i 1)) = W' (ix2 k (i' 1)))
    (hb : b (ix2 0 (i 1)) = b' (ix2 0 (i' 1))) :
    Cert.GNN.nodeFn relu x agg W b i = Cert.GNN.nodeFn relu x' agg' W' b' i' := by
  unfold Cert.GNN.nodeFn
  simp only [hx, hagg, hW, hb]

/-- The printed index maps over the grid: the two row windows move with the output's block, the weight's and the bias'
    windows stay at block zero, and the output's block of point `t` is block `t`. -/
theorem idx_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the unclipped node update of the region's four input arrays. -/
theorem flushed_eq (c : Dev nD) (t : Fin cfg3.N) :
    (dat3 (F := Ideal) V c).flushed 4 t = ((cfg3.win 4).blk t).view.read (Elt Ideal)
      (Cert.GNN.nodeFn (N := 50000) false (V c main_v15) (V c main_v20) (V c main_arg6) (V c main_v5) : Vec Ideal S50000x128 .f32) := by
  show (cfg3.win 4).cut (grid3.coords t) ((dat3 (F := Ideal) V c).after 4 t) = _
  rw [after3_4]
  unfold out3_4
  rw [View.canon_unit_zero zero_offsets]
  simp only [View.ld_unit_zero (S := S5000x128) zero_offsets, View.ld_unit_zero (S := S128x128) zero_offsets, View.ld_unit_zero (S := S1x128) zero_offsets]
  rw [pay_eq]
  obtain ⟨e00, e01, e10, e11, e20, e21, e30, e31, e40, e41⟩ := idx_facts t
  funext j
  show Cert.GNN.nodeFn (N := 5000) false (iblk3 V c 0 t) (iblk3 V c 1 t) (iblk3 V c 2 t) (iblk3 V c 3 t) j
    = Cert.GNN.nodeFn (N := 50000) false (V c main_v15) (V c main_v20) (V c main_arg6) (V c main_v5) (((cfg3.win 4).blk t).view.emb j)
  refine nodeFn_rowwise false _ _ _ _ _ _ _ _ j _ (fun k => ?_) (fun k => ?_) (fun k => ?_) ?_
  · show V c main_v15 (((cfg3.win 0).blk t).view.emb (ix2 (j 0) k)) = V c main_v15 (ix2 ((((cfg3.win 4).blk t).view.emb j) 0) k)
    refine congrArg (V c main_v15) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * k.val = k.val; omega
  · show V c main_v20 (((cfg3.win 1).blk t).view.emb (ix2 (j 0) k)) = V c main_v20 (ix2 ((((cfg3.win 4).blk t).view.emb j) 0) k)
    refine congrArg (V c main_v20) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * k.val = k.val; omega
  · show V c main_arg6 (((cfg3.win 2).blk t).view.emb (ix2 k (j 1))) = V c main_arg6 (ix2 k ((((cfg3.win 4).blk t).view.emb j) 1))
    refine congrArg (V c main_arg6) (funext fun a => Fin.ext ?_)
    match a with
    | ⟨0, _⟩ => show win3_2.index t (0 : Fin 2) * 128 + 1 * k.val = k.val; omega
    | ⟨1, _⟩ => show win3_2.index t (1 : Fin 2) * 128 + 1 * (j 1).val = win3_4.index t (1 : Fin 2) * 128 + 1 * (j 1).val; omega
  · show V c main_v5 (((cfg3.win 3).blk t).view.emb (ix2 0 (j 1))) = V c main_v5 (ix2 0 ((((cfg3.win 4).blk t).view.emb j) 1))
    refine congrArg (V c main_v5) (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An index of the array is in point `t`'s block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v21).slice (win3_4.rect t)).set ↔ _
  rw [View.set_slice_whole, Rect.mem_set_unit]
  exact Iff.rfl

/-- Every row lies in the block of the point its row number divided by 5000 names. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e00, e01, e10, e11, e20, e21, e30, e31, e40, e41⟩ := idx_facts t
  have e40' : win3_4.index t (0 : Fin 2) = (i 0).val / 5000 := e40
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The region's output array after its last write-back, as one function of the arrays the region entered with. -/
theorem arr (c : Dev nD) :
    (dat3 (F := Ideal) V c).arrAt 4 cfg3.N
      = (Cert.GNN.nodeFn (N := 50000) false (V c main_v15) (V c main_v20) (V c main_arg6) (V c main_v5) : Vec Ideal S50000x128 .f32) :=
  (dat3 (F := Ideal) V c).arrAt_eq_of_cover 4 _ (fun t _ => flushed_eq V c t) cover

end Cert.KernelIdeal.Region3

end
-- ==== Proof.Chain2.lean ====
/-
  The second layer, from the first layer's node array: the same four steps (gather at the source row, messages, scatter-add at the
  destination row, node update without clipping). At the exit of region 3 the node array is the other program's second-layer
  value of the same arguments: the program's second result.
-/
import proofs.«405423_j3315714752591_1_alg».proof.Proof.ChainDefs
import proofs.«405423_j3315714752591_1_alg».proof.Proof.RefStages
import proofs.«405423_j3315714752591_1_alg».proof.Proof.Chain1
import proofs.«405423_j3315714752591_1_alg».proof.Proof.Region2
import proofs.«405423_j3315714752591_1_alg».proof.Proof.Region3
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Chain

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg) (c : Dev nD)

/-- A buffer that no operation of a host stretch writes holds after the stretch what it held before. -/
local macro "host_keep " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ### What the first host stretch writes -/

private theorem v1_W1 : W1 m ρ c (Proc.devRef .tc main_v1) = srcRow m c := by
  show StableHlo.after hostOps0 _ (Proc.devRef .tc main_v1) = _
  after_results
  rfl

private theorem v3_W1 : W1 m ρ c (Proc.devRef .tc main_v3) = Cert.ReferenceIdeal.Read.val_main_v3 (F := Ideal) (A1 m c) := by
  show StableHlo.after hostOps0 _ (Proc.devRef .tc main_v3) = _
  after_results
  rfl

private theorem v4_W1 : W1 m ρ c (Proc.devRef .tc main_v4) = (shapeCast _ (A5 m c) shapeCasts_S128_S1x128 : Vec Ideal S1x128 .f32) := by
  show StableHlo.after hostOps0 _ (Proc.devRef .tc main_v4) = _
  after_results
  rfl

private theorem v5_W1 : W1 m ρ c (Proc.devRef .tc main_v5) = (shapeCast _ (A7 m c) shapeCasts_S128_S1x128 : Vec Ideal S1x128 .f32) := by
  show StableHlo.after hostOps0 _ (Proc.devRef .tc main_v5) = _
  after_results
  rfl

/-! ### Buffers read back at the later boundaries -/

/-- The source row is still in place when the second take runs. -/
private theorem v1_W5 : W5 m ρ c (Proc.devRef .tc main_v1) = srcRow m c :=
  calc W5 m ρ c (Proc.devRef .tc main_v1)
    _ = W4 m ρ c (Proc.devRef .tc main_v1) := W5_of_ne m ρ c main_v1 (by decide)
    _ = W3 m ρ c (Proc.devRef .tc main_v1) := by host_keep hostOps1
    _ = W2 m ρ c (Proc.devRef .tc main_v1) := W3_of_ne m ρ c main_v1 (by decide)
    _ = W1 m ρ c (Proc.devRef .tc main_v1) := by host_keep hostOps0_1
    _ = srcRow m c := v1_W1 m ρ c

/-- The destination row is still in place when the second scatter-add runs. -/
private theorem v3_W7 : W7 m ρ c (Proc.devRef .tc main_v3) = Cert.ReferenceIdeal.Read.val_main_v3 (F := Ideal) (A1 m c) :=
  calc W7 m ρ c (Proc.devRef .tc main_v3)
    _ = W6 m ρ c (Proc.devRef .tc main_v3) := W7_of_ne m ρ c main_v3 (by decide)
    _ = W5 m ρ c (Proc.devRef .tc main_v3) := by host_keep hostOps2
    _ = W4 m ρ c (Proc.devRef .tc main_v3) := W5_of_ne m ρ c main_v3 (by decide)
    _ = W3 m ρ c (Proc.devRef .tc main_v3) := by host_keep hostOps1
    _ = W2 m ρ c (Proc.devRef .tc main_v3) := W3_of_ne m ρ c main_v3 (by decide)
    _ = W1 m ρ c (Proc.devRef .tc main_v3) := by host_keep hostOps0_1
    _ = Cert.ReferenceIdeal.Read.val_main_v3 (F := Ideal) (A1 m c) := v3_W1 m ρ c

/-- The edge bias row, as region 2 finds it. -/
private theorem v4_W6 : W6 m ρ c (Proc.devRef .tc main_v4) = (shapeCast _ (A5 m c) shapeCasts_S128_S1x128 : Vec Ideal S1x128 .f32) :=
  calc W6 m ρ c (Proc.devRef .tc main_v4)
    _ = W5 m ρ c (Proc.devRef .tc main_v4) := by host_keep hostOps2
    _ = W4 m ρ c (Proc.devRef .tc main_v4) := W5_of_ne m ρ c main_v4 (by decide)
    _ = W3 m ρ c (Proc.devRef .tc main_v4) := by host_keep hostOps1
    _ = W2 m ρ c (Proc.devRef .tc main_v4) := (W3_arr m ρ c 3).trans (((dat0 (V2 m ρ) c).arrAt_in 3 rfl _).trans (A_eq0 (V2 m ρ) c 3))
    _ = W1 m ρ c (Proc.devRef .tc main_v4) := by host_keep hostOps0_1
    _ = _ := v4_W1 m ρ c

/-- The node bias row, as region 3 finds it. -/
private theorem v5_W8 : W8 m ρ c (Proc.devRef .tc main_v5) = (shapeCast _ (A7 m c) shapeCasts_S128_S1x128 : Vec Ideal S1x128 .f32) :=
  calc W8 m ρ c (Proc.devRef .tc main_v5)
    _ = W7 m ρ c (Proc.devRef .tc main_v5) := by host_keep hostOps3
    _ = W6 m ρ c (Proc.devRef .tc main_v5) := W7_of_ne m ρ c main_v5 (by decide)
    _ = W5 m ρ c (Proc.devRef .tc main_v5) := by host_keep hostOps2
    _ = W4 m ρ c (Proc.devRef .tc main_v5) := (W5_arr m ρ c 3).trans (((dat1 (V4 m ρ) c).arrAt_in 3 rfl _).trans (A_eq1 (V4 m ρ) c 3))
    _ = W3 m ρ c (Proc.devRef .tc main_v5) := by host_keep hostOps1
    _ = W2 m ρ c (Proc.devRef .tc main_v5) := W3_of_ne m ρ c main_v5 (by decide)
    _ = W1 m ρ c (Proc.devRef .tc main_v5) := by host_keep hostOps0_1
    _ = _ := v5_W1 m ρ c

/-- The edge attributes, as region 2 finds them. -/
private theorem arg2_W6 : W6 m ρ c (Proc.devRef .tc main_arg2) = A2 m c :=
  calc W6 m ρ c (Proc.devRef .tc main_arg2)
    _ = W5 m ρ c (Proc.devRef .tc main_arg2) := by host_keep hostOps2
    _ = W4 m ρ c (Proc.devRef .tc main_arg2) := W5_of_ne m ρ c main_arg2 (by decide)
    _ = W3 m ρ c (Proc.devRef .tc main_arg2) := by host_keep hostOps1
    _ = W2 m ρ c (Proc.devRef .tc main_arg2) := (W3_arr m ρ c 0).trans (((dat0 (V2 m ρ) c).arrAt_in 0 rfl _).trans (A_eq0 (V2 m ρ) c 0))
    _ = W1 m ρ c (Proc.devRef .tc main_arg2) := by host_keep hostOps0_1
    _ = W0 m ρ c (Proc.devRef .tc main_arg2) := by host_keep hostOps0
    _ = A2 m c := rfl

/-- The edge weight, as region 2 finds it. -/
private theorem arg4_W6 : W6 m ρ c (Proc.devRef .tc main_arg4) = A4 m c :=
  calc W6 m ρ c (Proc.devRef .tc main_arg4)
    _ = W5 m ρ c (Proc.devRef .tc main_arg4) := by host_keep hostOps2
    _ = W4 m ρ c (Proc.devRef .tc main_arg4) := W5_of_ne m ρ c main_arg4 (by decide)
    _ = W3 m ρ c (Proc.devRef .tc main_arg4) := by host_keep hostOps1
    _ = W2 m ρ c (Proc.devRef .tc main_arg4) := (W3_arr m ρ c 2).trans (((dat0 (V2 m ρ) c).arrAt_in 2 rfl _).trans (A_eq0 (V2 m ρ) c 2))
    _ = W1 m ρ c (Proc.devRef .tc main_arg4) := by host_keep hostOps0_1
    _ = W0 m ρ c (Proc.devRef .tc main_arg4) := by host_keep hostOps0
    _ = A4 m c := rfl

/-- The node weight, as region 3 finds it. -/
private theorem arg6_W8 : W8 m ρ c (Proc.devRef .tc main_arg6) = A6 m c :=
  calc W8 m ρ c (Proc.devRef .tc main_arg6)
    _ = W7 m ρ c (Proc.devRef .tc main_arg6) := by host_keep hostOps3
    _ = W6 m ρ c (Proc.devRef .tc main_arg6) := W7_of_ne m ρ c main_arg6 (by decide)
    _ = W5 m ρ c (Proc.devRef .tc main_arg6) := by host_keep hostOps2
    _ = W4 m ρ c (Proc.devRef .tc main_arg6) := (W5_arr m ρ c 2).trans (((dat1 (V4 m ρ) c).arrAt_in 2 rfl _).trans (A_eq1 (V4 m ρ) c 2))
    _ = W3 m ρ c (Proc.devRef .tc main_arg6) := by host_keep hostOps1
    _ = W2 m ρ c (Proc.devRef .tc main_arg6) := W3_of_ne m ρ c main_arg6 (by decide)
    _ = W1 m ρ c (Proc.devRef .tc main_arg6) := by host_keep hostOps0_1
    _ = W0 m ρ c (Proc.devRef .tc main_arg6) := by host_keep hostOps0
    _ = A6 m c := rfl

/-- The first layer's node array is untouched until region 3 reads it. -/
private theorem v15_W8 : W8 m ρ c (Proc.devRef .tc main_v15) = W5 m ρ c (Proc.devRef .tc main_v15) :=
  calc W8 m ρ c (Proc.devRef .tc main_v15)
    _ = W7 m ρ c (Proc.devRef .tc main_v15) := by host_keep hostOps3
    _ = W6 m ρ c (Proc.devRef .tc main_v15) := W7_of_ne m ρ c main_v15 (by decide)
    _ = W5 m ρ c (Proc.devRef .tc main_v15) := by host_keep hostOps2

/-! ### The second layer, link by link -/

/-- Contents carried to a typed reference's buffer and read back are the contents. -/
private theorem ofBuf_toBuf {T : BufTy} (x : StableHlo.TRef sig T) (v : T.Contents (Elt Ideal)) : x.ofBuf (x.toBuf v) = v := by
  obtain ⟨r, rfl, _, _⟩ := x
  rfl

/-- The host stretch before region 2, from any contents: its result is the filled take of the node array at the source row. -/
private theorem take1_stretch (V : Valuation τ sig (Elt Ideal)) :
    StableHlo.after hostOps2 V (Proc.devRef .tc main_v16)
      = FilledTake.takeE (V (Proc.devRef .tc main_v15)) (V (Proc.devRef .tc main_v1)) := by
  after_results_simp
  simp only [ofBuf_toBuf]
  have e1 : (StableHlo.TRef.of main_v15 : StableHlo.TRef sig ⟨S50000x128, .f32⟩).ofBuf (V (Proc.devRef .tc main_v15))
      = (V (Proc.devRef .tc main_v15) : Vec Ideal S50000x128 .f32) := rfl
  have e2 : (StableHlo.TRef.of main_v1 : StableHlo.TRef sig ⟨S800000, .i32⟩).ofBuf (V (Proc.devRef .tc main_v1))
      = (V (Proc.devRef .tc main_v1) : IVec S800000 32) := rfl
  have e3 : ∀ v : Vec Ideal S800000x128 .f32, (StableHlo.TRef.of main_v16 : StableHlo.TRef sig ⟨S800000x128, .f32⟩).toBuf v = v := fun _ => rfl
  rw [e1, e2, e3]
  unfold FilledTake.takeE FilledTake.startsE
  rfl

/-- With the source row in range the filled take is the other program's gather of its first-layer node array. -/
private theorem v16_W6 (h : InRange m c) : W6 m ρ c (Proc.devRef .tc main_v16)
    = Cert.ReferenceIdeal.Read.val_main_v34 (F := Ideal) (A0 m c) (A1 m c) (A2 m c) (A4 m c) (A5 m c) (A6 m c) (A7 m c) := by
  rw [show W6 m ρ c (Proc.devRef .tc main_v16)
        = FilledTake.takeE (W5 m ρ c (Proc.devRef .tc main_v15)) (W5 m ρ c (Proc.devRef .tc main_v1)) from take1_stretch (W5 m ρ c),
    layer1 m ρ c h, v1_W5, FilledTake.takeE_eq _ _ h.src]
  unfold FilledTake.startsE Cert.ReferenceIdeal.Read.val_main_v34 Cert.ReferenceIdeal.Read.val_main_v33
    Cert.ReferenceIdeal.Read.val_main_v32 Cert.ReferenceIdeal.Read.val_main_v31 Cert.ReferenceIdeal.Read.val_main_v30
    Cert.ReferenceIdeal.Read.val_main_v29 Cert.ReferenceIdeal.Read.val_main_v28 Cert.ReferenceIdeal.Read.val_main_c_2
    Cert.ReferenceIdeal.Read.val_main_c_3
  rfl

/-- Region 2 turns the gathered rows into the second layer's messages, as the other program computes them. -/
private theorem v17_W7 (h : InRange m c) : W7 m ρ c (Proc.devRef .tc main_v17)
    = Cert.ReferenceIdeal.Read.val_main_v36 (F := Ideal) (A0 m c) (A1 m c) (A2 m c) (A4 m c) (A5 m c) (A6 m c) (A7 m c) := by
  have e : W7 m ρ c (Proc.devRef .tc main_v17)
      = (Cert.GNN.msgFn (E := 800000) (W6 m ρ c (Proc.devRef .tc main_arg2)) (W6 m ρ c (Proc.devRef .tc main_v16))
          (W6 m ρ c (Proc.devRef .tc main_arg4)) (W6 m ρ c (Proc.devRef .tc main_v4)) : Vec Ideal S800000x128 .f32) :=
    (W7_arr m ρ c 4).trans (Cert.KernelIdeal.Region2.arr (V6 m ρ) c)
  rw [e, arg2_W6, v16_W6 m ρ c h, arg4_W6, v4_W6]
  exact (Cert.ReferenceIdeal.Stages.msg_stage _ (A2 m c) (A4 m c) (A5 m c) _
    (fun q => shapeCast_a_1a_apply (A5 m c) shapeCasts_S128_S1x128 0 q)).symm

/-- The host stretch before region 3, from any contents: the messages added up at the destination row, from zero. -/
private theorem scatter1_stretch (V : Valuation τ sig (Elt Ideal)) :
    StableHlo.after hostOps3 V (Proc.devRef .tc main_v20)
      = (Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_v3) : IVec S800000 32))
          (V (Proc.devRef .tc main_v17) : Vec Ideal S800000x128 .f32) : Vec Ideal S50000x128 .f32) := by
  after_results

/-- The second aggregation is the other program's. -/
private theorem v20_W8 (h : InRange m c) : W8 m ρ c (Proc.devRef .tc main_v20)
    = Cert.ReferenceIdeal.Read.val_main_v39 (F := Ideal) (A0 m c) (A1 m c) (A2 m c) (A4 m c) (A5 m c) (A6 m c) (A7 m c) := by
  rw [show W8 m ρ c (Proc.devRef .tc main_v20)
        = (Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (W7 m ρ c (Proc.devRef .tc main_v3) : IVec S800000 32))
          (W7 m ρ c (Proc.devRef .tc main_v17) : Vec Ideal S800000x128 .f32) : Vec Ideal S50000x128 .f32)
        from scatter1_stretch (W7 m ρ c),
    v3_W7, v17_W7 m ρ c h]
  unfold Cert.ReferenceIdeal.Read.val_main_v39 Cert.ReferenceIdeal.Read.val_main_v38 Cert.ReferenceIdeal.Read.val_main_v37
    Cert.ReferenceIdeal.Read.val_main_cst_4
  rfl

/-- After region 3 the kernel program's node array holds the second layer's output, as the other program computes it. -/
theorem layer2 (h : InRange m c) :
    W9 m ρ c (Proc.devRef .tc main_v21) = Cert.ReferenceIdeal.Read.val_main_v46 (F := Ideal) (A0 m c) (A1 m c) (A2 m c) (A4 m c) (A5 m c) (A6 m c) (A7 m c) := by
  have e : W9 m ρ c (Proc.devRef .tc main_v21)
      = (Cert.GNN.nodeFn (N := 50000) false (W8 m ρ c (Proc.devRef .tc main_v15)) (W8 m ρ c (Proc.devRef .tc main_v20))
          (W8 m ρ c (Proc.devRef .tc main_arg6)) (W8 m ρ c (Proc.devRef .tc main_v5)) : Vec Ideal S50000x128 .f32) :=
    (W9_arr m ρ c 4).trans (Cert.KernelIdeal.Region3.arr (V8 m ρ) c)
  rw [e, v15_W8, layer1 m ρ c h, v20_W8 m ρ c h, arg6_W8, v5_W8]
  exact (Cert.ReferenceIdeal.Stages.node_stage _ _ (A6 m c) (A7 m c) _
    (fun q => shapeCast_a_1a_apply (A7 m c) shapeCasts_S128_S1x128 0 q)).symm

end Cert.KernelIdeal.Chain

end
-- ==== Proof.Region4.lean ====
/-
  Region 4 (the edge classifier): after the 20 blocks of 10000 labelled edges are written back, the output column holds, row by row,
  `max (xi · Wa + xj · Wb + b1) 0 · w2 + b2` of the region's seven input arrays as it found them.
-/
import proofs.«405423_j3315714752591_1_alg».proof.Proof.Gen.KernelIdeal.Frame
import proofs.«405423_j3315714752591_1_alg».proof.Proof.RowFns
import Idealize.ShloMosaic.Lib.Pipeline.Value
import Idealize.ShloMosaic.Lib.ValueIdx
import Idealize.ShloMosaic.PureOps.Ideal.Laws

noncomputable section

namespace Cert.KernelIdeal.Region4

open Cert.KernelIdeal Cert.KernelIdeal.Gen Idealize.ShloMosaic Idealize.ShloMosaic.TcCoe Idealize.ShloMosaic.ValueIdx
open scoped BigOperators

/-- The whole-block rectangle's offsets are zero on both axes. -/
theorem hz : (![0, 0] : Fin 2 → Nat) = fun _ => 0 := funext fun a => by fin_cases a <;> rfl

/-! ## The two contractions of the body, at an index -/

theorem lhs_hid_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_hid_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_hid_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_hid_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of rows times a 128 × 128 weight into a zero accumulator: the sum over the shared axis. -/
theorem mm_hid (A : FVec Ideal S10000x128 .bf16) (B : FVec Ideal S128x128 .bf16) (p : Fin 10000) (h : Fin 128) :
    matmul dot_S10000x128_S128x128_S10000x128_1_0_0_1_n_n none A B (constant (F := Ideal) S10000x128 .f32 0x00000000#32) (ix2 p h)
      = ∑ k : Fin 128, A (ix2 p k) * B (ix2 k h) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p h) ((ValueIdx.contrEquiv1 dot_S10000x128_S128x128_S10000x128_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S10000x128_S128x128_S10000x128_1_0_0_1_n_n.rhsIdx (ix2 p h) ((ValueIdx.contrEquiv1 dot_S10000x128_S128x128_S10000x128_1_0_0_1_n_n 128 rfl rfl).symm k) = ix2 k h := funext fun a => Fin.ext (by
    match a with
    | ⟨0, _⟩ => exact (rhs_hid_0 _ _).trans hk
    | ⟨1, _⟩ => exact rhs_hid_1 _ _)
  rw [el, er]

theorem lhs_out_0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem lhs_out_1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem rhs_out_0 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem rhs_out_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-- A block of hidden rows times the 128 × 1 weight into a zero accumulator: the sum over the hidden axis. -/
theorem mm_out (A : FVec Ideal S10000x128 .bf16) (B : FVec Ideal S128x1 .bf16) (p : Fin 10000) (q : Fin 1) :
    matmul dot_S10000x128_S128x1_S10000x1_1_0_0_1_n_n none A B (constant (F := Ideal) S10000x1 .f32 0x00000000#32) (ix2 p q)
      = ∑ k : Fin 128, A (ix2 p k) * B (ix2 k q) := by
  simp only [matmul]
  rw [Ideal.matmul_constant_zero_apply, ← Equiv.sum_comp (ValueIdx.contrEquiv1 dot_S10000x128_S128x1_S10000x1_1_0_0_1_n_n 128 rfl rfl).symm]
  refine Finset.sum_congr rfl fun k _ => ?_
  have hk := ValueIdx.contrEquiv1_symm_val dot_S10000x128_S128x1_S10000x1_1_0_0_1_n_n 128 rfl rfl k
  have el : dot_S10000x128_S128x1_S10000x1_1_0_0_1_n_n.lhsIdx (ix2 p q) ((ValueIdx.contrEquiv1 dot_S10000x128_S128x1_S10000x1_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S10000x128_S128x1_S10000x1_1_0_0_1_n_n.rhsIdx (ix2 p q) ((ValueIdx.contrEquiv1 dot_S10000x128_S128x1_S10000x1_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-- The bias row spread over the block's rows reads the bias at the column. -/
theorem bias_row (b : Vec Ideal S1x128 .f32) (p : Fin 10000) (h : Fin 128) :
    broadcastTo S10000x128 b broadcasts_S1x128_S10000x128 (ix2 p h) = b (ix2 0 h) := by
  refine broadcastTo_apply _ _ _ (ix2 0 h) fun a => ?_
  match a with
  | ⟨0, _⟩ => rfl
  | ⟨1, _⟩ => rfl

/-- The 1 × 1 bias spread over the block's rows reads the bias. -/
theorem bias_one (b : Vec Ideal S1x1 .f32) (p : Fin 10000) (q : Fin 1) :
    broadcastTo S10000x1 b broadcasts_S1x1_S10000x1 (ix2 p q) = b (ix2 0 0) := by
  refine broadcastTo_apply _ _ _ (ix2 0 0) fun a => ?_
  match a with
  | ⟨0, _⟩ => rfl
  | ⟨1, _⟩ => rfl

/-- THE BODY'S PAYLOAD is the classifier's row-wise function of the loaded blocks. -/
theorem pay_eq (x0 x1 : Vec Ideal S10000x128 .f32) (x2 x3 : Vec Ideal S128x128 .f32) (x4 : Vec Ideal S1x128 .f32)
    (x5 : Vec Ideal S128x1 .f32) (x6 : Vec Ideal S1x1 .f32) :
    k4_pay1 (F := Ideal) x0 x1 x2 x3 x4 x5 x6 = Cert.GNN.clsFn (L := 10000) x0 x1 x2 x3 x4 x5 x6 := by
  funext j
  obtain ⟨p, q, rfl⟩ : ∃ (p : Fin 10000) (q : Fin 1), j = ix2 p q := ⟨j 0, j 1, eq_ix2 j⟩
  obtain rfl : q = 0 := Subsingleton.elim _ _
  unfold k4_pay1
  simp only [shapeCast_self]
  rw [addf_apply, mm_out, bias_one]
  unfold Cert.GNN.clsFn Cert.GNN.clsHidden
  refine congrArg (· + _) (Finset.sum_congr rfl fun h _ => ?_)
  rw [truncf_apply, truncf_apply, maximumf_apply, addf_apply, addf_apply, mm_hid, mm_hid, bias_row, broadcast_apply]
  simp only [truncf_apply]
  rw [show (Scalar.ofBits .f32 0x00000000#32 : Ideal .f32) = 0 from Ideal.ofBits_zero_f32]

/-! ## The function is row-wise -/

/-- A row of the classifier's function depends on that row of the two endpoint arrays only: two pairs of endpoint arrays
    that agree on a row give the same score there, whatever the two arrays' numbers of rows. -/
theorem clsFn_row {L M : Nat} (xi xj : (⟨2, ![L, 128]⟩ : Shape).Idx → EReal) (yi yj : (⟨2, ![M, 128]⟩ : Shape).Idx → EReal)
    (Wa Wb : (⟨2, ![128, 128]⟩ : Shape).Idx → EReal) (b1 : (⟨2, ![1, 128]⟩ : Shape).Idx → EReal)
    (w2 : (⟨2, ![128, 1]⟩ : Shape).Idx → EReal) (b2 : (⟨2, ![1, 1]⟩ : Shape).Idx → EReal)
    (i : (⟨2, ![L, 1]⟩ : Shape).Idx) (i' : (⟨2, ![M, 1]⟩ : Shape).Idx)
    (hi : ∀ k : Fin 128, xi (ix2 (i 0) k) = yi (ix2 (i' 0) k)) (hj : ∀ k : Fin 128, xj (ix2 (i 0) k) = yj (ix2 (i' 0) k)) :
    Cert.GNN.clsFn xi xj Wa Wb b1 w2 b2 i = Cert.GNN.clsFn yi yj Wa Wb b1 w2 b2 i' := by
  unfold Cert.GNN.clsFn Cert.GNN.clsHidden
  simp only [hi, hj]

/-! ## The index maps, over the grid -/

/-- The two endpoint windows and the output window sit at block `(t, 0)`; the weights' and biases' windows at block `(0, 0)`. -/
theorem idx_facts : ∀ t : Fin cfg4.N,
    win4_0.index t (0 : Fin 2) = win4_7.index t (0 : Fin 2) ∧ win4_0.index t (1 : Fin 2) = 0
    ∧ win4_1.index t (0 : Fin 2) = win4_7.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

variable (V : (c : Dev nD) → (b : Ref sig .tc) → Buf (Elt Ideal) ((c : Thread nD τ).loc b))

/-! ## What a point writes back -/

/-- WHAT POINT `t` WRITES BACK is block `t` of the classifier's function of the seven arrays as the region finds them. -/
theorem flushed_eq (c : Dev nD) (t : Fin cfg4.N) :
    (dat4 (F := Ideal) V c).flushed 7 t = ((cfg4.win 7).blk t).view.read (Elt Ideal)
      (Cert.GNN.clsFn (L := 200000) (V c main_v26) (V c main_v27) (V c main_v6) (V c main_v7) (V c main_v8) (V c main_arg10) (V c main_v9) : Vec Ideal S200000x1 .f32) := by
  show (cfg4.win 7).cut (grid4.coords t) ((dat4 (F := Ideal) V c).after 7 t) = _
  rw [after4_7]
  unfold out4_7
  rw [View.canon_unit_zero hz]
  simp only [View.ld_unit_zero (S := S10000x128) hz, View.ld_unit_zero (S := S128x128) hz, View.ld_unit_zero (S := S1x128) hz,
    View.ld_unit_zero (S := S128x1) hz, View.ld_unit_zero (S := S1x1) hz]
  rw [pay_eq]
  obtain ⟨f00, f01, f10, f11, f20, f21, f30, f31, f40, f41, f50, f51, f60, f61, f70, f71⟩ := idx_facts t
  have e2 : (iblk4 V c 2 t : Vec Ideal S128x128 .f32) = V c main_v6 := by
    funext y
    show V c main_v6 (((cfg4.win 2).blk t).view.emb y) = V c main_v6 y
    refine congrArg _ (funext fun a => Fin.ext ?_)
    match a with
    | ⟨0, _⟩ => show win4_2.index t (0 : Fin 2) * 128 + 1 * (y 0).val = (y 0).val; omega
    | ⟨1, _⟩ => show win4_2.index t (1 : Fin 2) * 128 + 1 * (y 1).val = (y 1).val; omega
  have e3 : (iblk4 V c 3 t : Vec Ideal S128x128 .f32) = V c main_v7 := by
    funext y
    show V c main_v7 (((cfg4.win 3).blk t).view.emb y) = V c main_v7 y
    refine congrArg _ (funext fun a => Fin.ext ?_)
    match a with
    | ⟨0, _⟩ => show win4_3.index t (0 : Fin 2) * 128 + 1 * (y 0).val = (y 0).val; omega
    | ⟨1, _⟩ => show win4_3.index t (1 : Fin 2) * 128 + 1 * (y 1).val = (y 1).val; omega
  have e4 : (iblk4 V c 4 t : Vec Ideal S1x128 .f32) = V c main_v8 := by
    funext y
    show V c main_v8 (((cfg4.win 4).blk t).view.emb y) = V c main_v8 y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 128 + 1 * (y 1).val = (y 1).val; omega
  have e5 : (iblk4 V c 5 t : Vec Ideal S128x1 .f32) = V c main_arg10 := by
    funext y
    show V c main_arg10 (((cfg4.win 5).blk t).view.emb y) = V c main_arg10 y
    refine congrArg _ (funext fun a => Fin.ext ?_)
    match a with
    | ⟨0, _⟩ => show win4_5.index t (0 : Fin 2) * 128 + 1 * (y 0).val = (y 0).val; omega
    | ⟨1, _⟩ => show win4_5.index t (1 : Fin 2) * 1 + 1 * (y 1).val = (y 1).val; omega
  have e6 : (iblk4 V c 6 t : Vec Ideal S1x1 .f32) = V c main_v9 := by
    funext y
    show V c main_v9 (((cfg4.win 6).blk t).view.emb y) = V c main_v9 y
    refine congrArg _ (funext fun a => Fin.ext ?_)
    match a with
    | ⟨0, _⟩ => show win4_6.index t (0 : Fin 2) * 1 + 1 * (y 0).val = (y 0).val; omega
    | ⟨1, _⟩ => show win4_6.index t (1 : Fin 2) * 1 + 1 * (y 1).val = (y 1).val; omega
  rw [e2, e3, e4, e5, e6]
  funext j
  show Cert.GNN.clsFn (L := 10000) (iblk4 V c 0 t) (iblk4 V c 1 t) (V c main_v6) (V c main_v7) (V c main_v8) (V c main_arg10) (V c main_v9) j
    = Cert.GNN.clsFn (L := 200000) (V c main_v26) (V c main_v27) (V c main_v6) (V c main_v7) (V c main_v8) (V c main_arg10) (V c main_v9) (((cfg4.win 7).blk t).view.emb j)
  refine clsFn_row _ _ _ _ _ _ _ _ _ j _ (fun k => ?_) (fun k => ?_)
  · show V c main_v26 (((cfg4.win 0).blk t).view.emb (ix2 (j 0) k)) = V c main_v26 (ix2 ((((cfg4.win 7).blk t).view.emb j) 0) k)
    refine congrArg _ (funext fun a => Fin.ext ?_)
    match a with
    | ⟨0, _⟩ => show win4_0.index t (0 : Fin 2) * 10000 + 1 * (j 0).val = win4_7.index t (0 : Fin 2) * 10000 + 1 * (j 0).val; omega
    | ⟨1, _⟩ => show win4_0.index t (1 : Fin 2) * 128 + 1 * k.val = k.val; omega
  · show V c main_v27 (((cfg4.win 1).blk t).view.emb (ix2 (j 0) k)) = V c main_v27 (ix2 ((((cfg4.win 7).blk t).view.emb j) 0) k)
    refine congrArg _ (funext fun a => Fin.ext ?_)
    match a with
    | ⟨0, _⟩ => show win4_1.index t (0 : Fin 2) * 10000 + 1 * (j 0).val = win4_7.index t (0 : Fin 2) * 10000 + 1 * (j 0).val; omega
    | ⟨1, _⟩ => show win4_1.index t (1 : Fin 2) * 128 + 1 * k.val = k.val; omega

/-! ## The blocks cover the array -/

/-- An index of the output column is in point `t`'s block iff each coordinate is in the block's range on its axis. -/
theorem mem_blk (t : Fin cfg4.N) (i : S200000x1.Idx) :
    i ∈ ((cfg4.win 7).blk t).view.set ↔ ∀ a : Fin 2, win4_7.index t a * S10000x1.size a ≤ (i a).val ∧ (i a).val < win4_7.index t a * S10000x1.size a + S10000x1.size a := by
  show i ∈ ((View.whole main_v28).slice (win4_7.rect t)).set ↔ _
  rw [View.set_slice_whole, Rect.mem_set_unit]
  exact Iff.rfl

/-- Row `r` of the output column lies in the block of point `r / 10000`, which is written back. -/
theorem cover (i : S200000x1.Idx) : ∃ t : Fin cfg4.N, (cfg4.win 7).flush t = true ∧ i ∈ ((cfg4.win 7).blk t).view.set := by
  have hi0 : (i 0).val < 200000 := (i 0).isLt
  have hi1 : (i 1).val < 1 := (i 1).isLt
  have hN : cfg4.N = 20 := by decide
  have ht : (i 0).val / 10000 < cfg4.N := by rw [hN]; omega
  obtain ⟨-, -, -, -, -, -, -, -, -, -, -, -, -, -, f70, f71⟩ := idx_facts ⟨(i 0).val / 10000, ht⟩
  refine ⟨⟨(i 0).val / 10000, ht⟩, flush4_7 _, ?_⟩
  rw [mem_blk]
  intro a
  match a with
  | ⟨0, _⟩ =>
    show win4_7.index ⟨(i 0).val / 10000, ht⟩ (0 : Fin 2) * 10000 ≤ (i 0).val ∧ (i 0).val < win4_7.index ⟨(i 0).val / 10000, ht⟩ (0 : Fin 2) * 10000 + 10000
    rw [f70]; show (i 0).val / 10000 * 10000 ≤ (i 0).val ∧ (i 0).val < (i 0).val / 10000 * 10000 + 10000; omega
  | ⟨1, _⟩ =>
    show win4_7.index ⟨(i 0).val / 10000, ht⟩ (1 : Fin 2) * 1 ≤ (i 1).val ∧ (i 1).val < win4_7.index ⟨(i 0).val / 10000, ht⟩ (1 : Fin 2) * 1 + 1
    rw [f71]; omega

/-- The region's output array after its last write-back, as one function of the arrays the region entered with. -/
theorem arr (c : Dev nD) :
    (dat4 (F := Ideal) V c).arrAt 7 cfg4.N
      = (Cert.GNN.clsFn (L := 200000) (V c main_v26) (V c main_v27) (V c main_v6) (V c main_v7) (V c main_v8) (V c main_arg10) (V c main_v9) : Vec Ideal S200000x1 .f32) :=
  (dat4 (F := Ideal) V c).arrAt_eq_of_cover 7 _ (fun t _ => flushed_eq V c t) cover

end Cert.KernelIdeal.Region4

end
-- ==== Proof.Chain3.lean ====
/-
  The classifier, from the second layer's node array: the two endpoint rows are gathered (in range, so nothing is filled), region 4
  scores each labelled edge with the two halves of the first weight, and the column of scores is laid out as a vector. The node
  array itself is not written again. So the last boundary holds both results at the other program's values.
-/
import proofs.«405423_j3315714752591_1_alg».proof.Proof.ChainDefs
import proofs.«405423_j3315714752591_1_alg».proof.Proof.RefStages
import proofs.«405423_j3315714752591_1_alg».proof.Proof.Chain2
import proofs.«405423_j3315714752591_1_alg».proof.Proof.Region4
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Chain

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg) (c : Dev nD)

/-! ### What each host stretch writes, and that it leaves every other buffer alone -/

/-- Closes "every operation of the stretch writes a reference of the list". -/
local macro "writes_in_list" ops:ident : tactic =>
  `(tactic| (simp only [$ops:ident, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]; (repeat' apply And.intro) <;> exact List.mem_map_of_mem (by decide)))

/-- The references the last reshape writes. -/
private abbrev wr5 : List (Ref sig .tc) := [main_v29]
private theorem wr5_sub : (hostOps5 (F := Ideal)).Forall fun op => op.writes ⊆ (wr5.map (Proc.devRef (τ := τ) .tc)).toFinset := by
  writes_in_list hostOps5
private theorem keep5 (V : Valuation τ sig (Elt Ideal)) (r : Ref sig .tc) (hr : r ∉ wr5) :
    StableHlo.after hostOps5 V (Proc.devRef .tc r) = V (Proc.devRef .tc r) :=
  StableHlo.after_of_writes_sub hostOps5 V wr5_sub hr

/-- The references the two slices of the label index and their reshapes write. -/
private abbrev wr4 : List (Ref sig .tc) := [main_v22, main_v23, main_v24, main_v25]
private theorem wr4_sub : (hostOps4 (F := Ideal)).Forall fun op => op.writes ⊆ (wr4.map (Proc.devRef (τ := τ) .tc)).toFinset := by
  writes_in_list hostOps4
private theorem keep4 (V : Valuation τ sig (Elt Ideal)) (r : Ref sig .tc) (hr : r ∉ wr4) :
    StableHlo.after hostOps4 V (Proc.devRef .tc r) = V (Proc.devRef .tc r) :=
  StableHlo.after_of_writes_sub hostOps4 V wr4_sub hr

/-- The references the first endpoint's take writes. -/
private abbrev wr4_1 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v26]
private theorem wr4_1_sub : (hostOps4_1 (F := Ideal)).Forall fun op => op.writes ⊆ (wr4_1.map (Proc.devRef (τ := τ) .tc)).toFinset := by
  writes_in_list hostOps4_1
private theorem keep4_1 (V : Valuation τ sig (Elt Ideal)) (r : Ref sig .tc) (hr : r ∉ wr4_1) :
    StableHlo.after hostOps4_1 V (Proc.devRef .tc r) = V (Proc.devRef .tc r) :=
  StableHlo.after_of_writes_sub hostOps4_1 V wr4_1_sub hr

/-- The references the second endpoint's take writes. -/
private abbrev wr4_2 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v27]
private theorem wr4_2_sub : (hostOps4_2 (F := Ideal)).Forall fun op => op.writes ⊆ (wr4_2.map (Proc.devRef (τ := τ) .tc)).toFinset := by
  writes_in_list hostOps4_2
private theorem keep4_2 (V : Valuation τ sig (Elt Ideal)) (r : Ref sig .tc) (hr : r ∉ wr4_2) :
    StableHlo.after hostOps4_2 V (Proc.devRef .tc r) = V (Proc.devRef .tc r) :=
  StableHlo.after_of_writes_sub hostOps4_2 V wr4_2_sub hr

/-! ### From region 3's exit to the end: a buffer that the four host stretches do not write and that is no array of region 4 -/

/-- Such a buffer holds at the last boundary what it held at region 3's exit. -/
private theorem W14_eq_W9 (r : Ref sig .tc) (h5 : r ∉ wr5) (h4 : ∀ w, Pipeline.arrRef spec4 w ≠ r) (h42 : r ∉ wr4_2) (h41 : r ∉ wr4_1)
    (h40 : r ∉ wr4) : W14 m ρ c (Proc.devRef .tc r) = W9 m ρ c (Proc.devRef .tc r) :=
  calc W14 m ρ c (Proc.devRef .tc r)
    _ = W13 m ρ c (Proc.devRef .tc r) := keep5 _ r h5
    _ = W12 m ρ c (Proc.devRef .tc r) := W13_of_ne m ρ c r h4
    _ = W11 m ρ c (Proc.devRef .tc r) := keep4_2 _ r h42
    _ = W10 m ρ c (Proc.devRef .tc r) := keep4_1 _ r h41
    _ = W9 m ρ c (Proc.devRef .tc r) := keep4 _ r h40

/-- The node array is not touched after region 3. -/
theorem nodes_final (h : InRange m c) :
    W14 m ρ c (Proc.devRef .tc main_v21) = Cert.ReferenceIdeal.Read.val_main_v46 (F := Ideal) (A0 m c) (A1 m c) (A2 m c) (A4 m c) (A5 m c) (A6 m c) (A7 m c) :=
  (W14_eq_W9 m ρ c main_v21 (by decide) (by decide) (by decide) (by decide) (by decide)).trans (layer2 m ρ c h)

/-! ### The two endpoint rows of the label index -/

/-- The label index is no region's array and no host stretch writes it: at region 3's exit it is as launched. -/
private theorem W9_arg3 : W9 m ρ c (Proc.devRef .tc main_arg3) = A3 m c :=
  (W14_eq_W9 m ρ c main_arg3 (by decide) (by decide) (by decide) (by decide) (by decide)).symm.trans (W14_main_arg3 m ρ c)

/-- Row 0 of the label index, cut out and laid flat. -/
private theorem W10_v23 : W10 m ρ c (Proc.devRef .tc main_v23) = liRow m c := by
  have e : W10 m ρ c (Proc.devRef .tc main_v23)
      = (shapeCast S200000 (extractStridedSlice S1x200000 ![0, 0] (W9 m ρ c (Proc.devRef .tc main_arg3) : IVec S2x200000 32)
          slices_S2x200000_S1x200000_0_0) shapeCasts_S1x200000_S200000 : IVec S200000 32) := by
    show StableHlo.after hostOps4 _ (Proc.devRef .tc main_v23) = _
    after_results
    rfl
  rw [e, W9_arg3]
  rfl

/-- Row 1 of the label index, cut out and laid flat. -/
private theorem W10_v25 : W10 m ρ c (Proc.devRef .tc main_v25) = ljRow m c := by
  have e : W10 m ρ c (Proc.devRef .tc main_v25)
      = (shapeCast S200000 (extractStridedSlice S1x200000 ![1, 0] (W9 m ρ c (Proc.devRef .tc main_arg3) : IVec S2x200000 32)
          slices_S2x200000_S1x200000_1_0) shapeCasts_S1x200000_S200000 : IVec S200000 32) := by
    show StableHlo.after hostOps4 _ (Proc.devRef .tc main_v25) = _
    after_results
    rfl
  rw [e, W9_arg3]
  rfl

/-- The node array when the two takes run. -/
private theorem W10_v21 (h : InRange m c) :
    W10 m ρ c (Proc.devRef .tc main_v21) = Cert.ReferenceIdeal.Read.val_main_v46 (F := Ideal) (A0 m c) (A1 m c) (A2 m c) (A4 m c) (A5 m c) (A6 m c) (A7 m c) :=
  (keep4 _ main_v21 (by decide)).trans (layer2 m ρ c h)

/-! ### The two takes -/

/-- The first endpoint's take, from any contents: the filled take of what `main_v21` holds at the row `main_v23` holds. -/
private theorem take_li (V : Valuation τ sig (Elt Ideal)) : StableHlo.after hostOps4_1 V (Proc.devRef .tc main_v26)
    = FilledTake.takeL (V (Proc.devRef .tc main_v21) : Vec Ideal S50000x128 .f32) (V (Proc.devRef .tc main_v23) : IVec S200000 32) := by
  after_results_simp
  simp only [StableHlo.TRef.ofBuf, StableHlo.TRef.toBuf, cast_eq]
  unfold FilledTake.takeL FilledTake.startsL
  rfl

/-- The second endpoint's take, from any contents: the filled take of what `main_v21` holds at the row `main_v25` holds. -/
private theorem take_lj (V : Valuation τ sig (Elt Ideal)) : StableHlo.after hostOps4_2 V (Proc.devRef .tc main_v27)
    = FilledTake.takeL (V (Proc.devRef .tc main_v21) : Vec Ideal S50000x128 .f32) (V (Proc.devRef .tc main_v25) : IVec S200000 32) := by
  after_results_simp
  simp only [StableHlo.TRef.ofBuf, StableHlo.TRef.toBuf, cast_eq]
  unfold FilledTake.takeL FilledTake.startsL
  rfl

/-- The wrapped row 0 laid as a column of start indices is the other program's column. -/
private theorem starts_li : FilledTake.startsL (liRow m c) = Cert.ReferenceIdeal.Read.val_main_v54 (F := Ideal) (A3 m c) := rfl
/-- The wrapped row 1 laid as a column of start indices is the other program's column. -/
private theorem starts_lj : FilledTake.startsL (ljRow m c) = Cert.ReferenceIdeal.Read.val_main_v63 (F := Ideal) (A3 m c) := rfl

/-- The first endpoint's rows: every index is in range, so the take fills nothing and is the other program's gather. -/
private theorem W11_v26 (h : InRange m c) :
    W11 m ρ c (Proc.devRef .tc main_v26) = Cert.ReferenceIdeal.Read.val_main_v55 (F := Ideal) (A0 m c) (A1 m c) (A2 m c) (A3 m c) (A4 m c) (A5 m c) (A6 m c) (A7 m c) := by
  have e : W11 m ρ c (Proc.devRef .tc main_v26)
      = FilledTake.takeL (W10 m ρ c (Proc.devRef .tc main_v21) : Vec Ideal S50000x128 .f32) (W10 m ρ c (Proc.devRef .tc main_v23) : IVec S200000 32) :=
    take_li (W10 m ρ c)
  rw [e, W10_v21 m ρ c h, W10_v23, FilledTake.takeL_eq _ _ h.li, starts_li]
  rfl

/-- The second endpoint's rows, likewise. -/
private theorem W12_v27 (h : InRange m c) :
    W12 m ρ c (Proc.devRef .tc main_v27) = Cert.ReferenceIdeal.Read.val_main_v64 (F := Ideal) (A0 m c) (A1 m c) (A2 m c) (A3 m c) (A4 m c) (A5 m c) (A6 m c) (A7 m c) := by
  have e : W12 m ρ c (Proc.devRef .tc main_v27)
      = FilledTake.takeL (W11 m ρ c (Proc.devRef .tc main_v21) : Vec Ideal S50000x128 .f32) (W11 m ρ c (Proc.devRef .tc main_v25) : IVec S200000 32) :=
    take_lj (W11 m ρ c)
  have e21 : W11 m ρ c (Proc.devRef .tc main_v21) = Cert.ReferenceIdeal.Read.val_main_v46 (F := Ideal) (A0 m c) (A1 m c) (A2 m c) (A4 m c) (A5 m c) (A6 m c) (A7 m c) :=
    (keep4_1 _ main_v21 (by decide)).trans (W10_v21 m ρ c h)
  have e25 : W11 m ρ c (Proc.devRef .tc main_v25) = ljRow m c := (keep4_1 _ main_v25 (by decide)).trans (W10_v25 m ρ c)
  rw [e, e21, e25, FilledTake.takeL_eq _ _ h.lj, starts_lj]
  rfl

/-- The first endpoint's rows are still there when region 4 starts. -/
private theorem W12_v26 (h : InRange m c) :
    W12 m ρ c (Proc.devRef .tc main_v26) = Cert.ReferenceIdeal.Read.val_main_v55 (F := Ideal) (A0 m c) (A1 m c) (A2 m c) (A3 m c) (A4 m c) (A5 m c) (A6 m c) (A7 m c) :=
  (keep4_2 _ main_v26 (by decide)).trans (W11_v26 m ρ c h)

/-! ### The earlier host stretches, for the buffers the first stretch fills and only region 4 reads -/

/-- The references the first layer's take writes. -/
private abbrev wr0_1 : List (Ref sig .tc) := [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v10]
private theorem wr0_1_sub : (hostOps0_1 (F := Ideal)).Forall fun op => op.writes ⊆ (wr0_1.map (Proc.devRef (τ := τ) .tc)).toFinset := by
  writes_in_list hostOps0_1
private theorem keep0_1 (V : Valuation τ sig (Elt Ideal)) (r : Ref sig .tc) (hr : r ∉ wr0_1) :
    StableHlo.after hostOps0_1 V (Proc.devRef .tc r) = V (Proc.devRef .tc r) :=
  StableHlo.after_of_writes_sub hostOps0_1 V wr0_1_sub hr

/-- The references the first layer's scatter-add writes. -/
private abbrev wr1 : List (Ref sig .tc) := [main_cst, main_v12, main_v13, main_v14]
private theorem wr1_sub : (hostOps1 (F := Ideal)).Forall fun op => op.writes ⊆ (wr1.map (Proc.devRef (τ := τ) .tc)).toFinset := by
  writes_in_list hostOps1
private theorem keep1 (V : Valuation τ sig (Elt Ideal)) (r : Ref sig .tc) (hr : r ∉ wr1) :
    StableHlo.after hostOps1 V (Proc.devRef .tc r) = V (Proc.devRef .tc r) :=
  StableHlo.after_of_writes_sub hostOps1 V wr1_sub hr

/-- The references the second layer's take writes. -/
private abbrev wr2 : List (Ref sig .tc) := [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v16]
private theorem wr2_sub : (hostOps2 (F := Ideal)).Forall fun op => op.writes ⊆ (wr2.map (Proc.devRef (τ := τ) .tc)).toFinset := by
  writes_in_list hostOps2
private theorem keep2 (V : Valuation τ sig (Elt Ideal)) (r : Ref sig .tc) (hr : r ∉ wr2) :
    StableHlo.after hostOps2 V (Proc.devRef .tc r) = V (Proc.devRef .tc r) :=
  StableHlo.after_of_writes_sub hostOps2 V wr2_sub hr

/-- The references the second layer's scatter-add writes. -/
private abbrev wr3 : List (Ref sig .tc) := [main_cst_0, main_v18, main_v19, main_v20]
private theorem wr3_sub : (hostOps3 (F := Ideal)).Forall fun op => op.writes ⊆ (wr3.map (Proc.devRef (τ := τ) .tc)).toFinset := by
  writes_in_list hostOps3
private theorem keep3 (V : Valuation τ sig (Elt Ideal)) (r : Ref sig .tc) (hr : r ∉ wr3) :
    StableHlo.after hostOps3 V (Proc.devRef .tc r) = V (Proc.devRef .tc r) :=
  StableHlo.after_of_writes_sub hostOps3 V wr3_sub hr

/-- A buffer that no host stretch from the first take to the last writes and that is no array of regions 0 to 3 holds at region 4's
    entry what the first host stretch left in it. -/
private theorem W12_eq_W1 (r : Ref sig .tc) (h42 : r ∉ wr4_2) (h41 : r ∉ wr4_1) (h40 : r ∉ wr4) (h3 : ∀ w, Pipeline.arrRef spec3 w ≠ r)
    (h30 : r ∉ wr3) (h2 : ∀ w, Pipeline.arrRef spec2 w ≠ r) (h20 : r ∉ wr2) (h1 : ∀ w, Pipeline.arrRef spec1 w ≠ r) (h10 : r ∉ wr1)
    (h0 : ∀ w, Pipeline.arrRef spec0 w ≠ r) (h01 : r ∉ wr0_1) :
    W12 m ρ c (Proc.devRef .tc r) = W1 m ρ c (Proc.devRef .tc r) :=
  calc W12 m ρ c (Proc.devRef .tc r)
    _ = W11 m ρ c (Proc.devRef .tc r) := keep4_2 _ r h42
    _ = W10 m ρ c (Proc.devRef .tc r) := keep4_1 _ r h41
    _ = W9 m ρ c (Proc.devRef .tc r) := keep4 _ r h40
    _ = W8 m ρ c (Proc.devRef .tc r) := W9_of_ne m ρ c r h3
    _ = W7 m ρ c (Proc.devRef .tc r) := keep3 _ r h30
    _ = W6 m ρ c (Proc.devRef .tc r) := W7_of_ne m ρ c r h2
    _ = W5 m ρ c (Proc.devRef .tc r) := keep2 _ r h20
    _ = W4 m ρ c (Proc.devRef .tc r) := W5_of_ne m ρ c r h1
    _ = W3 m ρ c (Proc.devRef .tc r) := keep1 _ r h10
    _ = W2 m ρ c (Proc.devRef .tc r) := W3_of_ne m ρ c r h0
    _ = W1 m ρ c (Proc.devRef .tc r) := keep0_1 _ r h01

/-! ### Region 4's other inputs: two halves of the first weight, two bias rows, the second weight -/

/-- The upper half of the first weight, as the first host stretch cuts it out of whatever `main_arg8` holds. -/
private theorem h0_v6 (V : Valuation τ sig (Elt Ideal)) : StableHlo.after hostOps0 V (Proc.devRef .tc main_v6)
    = (extractStridedSlice S128x128 ![0, 0] (V (Proc.devRef .tc main_arg8) : Vec Ideal S256x128 .f32) slices_S256x128_S128x128_0_0 : Vec Ideal S128x128 .f32) := by
  after_results
/-- The lower half. -/
private theorem h0_v7 (V : Valuation τ sig (Elt Ideal)) : StableHlo.after hostOps0 V (Proc.devRef .tc main_v7)
    = (extractStridedSlice S128x128 ![128, 0] (V (Proc.devRef .tc main_arg8) : Vec Ideal S256x128 .f32) slices_S256x128_S128x128_128_0 : Vec Ideal S128x128 .f32) := by
  after_results
/-- The first bias as a row. -/
private theorem h0_v8 (V : Valuation τ sig (Elt Ideal)) : StableHlo.after hostOps0 V (Proc.devRef .tc main_v8)
    = (shapeCast S1x128 (V (Proc.devRef .tc main_arg9) : Vec Ideal S128 .f32) shapeCasts_S128_S1x128 : Vec Ideal S1x128 .f32) := by
  after_results
  rfl
/-- The second bias as a 1 × 1 array. -/
private theorem h0_v9 (V : Valuation τ sig (Elt Ideal)) : StableHlo.after hostOps0 V (Proc.devRef .tc main_v9)
    = (shapeCast S1x1 (V (Proc.devRef .tc main_arg11) : Vec Ideal S1 .f32) shapeCasts_S1_S1x1 : Vec Ideal S1x1 .f32) := by
  after_results
  rfl

private theorem W12_v6 : W12 m ρ c (Proc.devRef .tc main_v6)
    = (extractStridedSlice S128x128 ![0, 0] (A8 m c) slices_S256x128_S128x128_0_0 : Vec Ideal S128x128 .f32) :=
  (W12_eq_W1 m ρ c main_v6 (by decide) (by decide) (by decide) (by decide) (by decide) (by decide) (by decide) (by decide) (by decide) (by decide) (by decide)).trans (h0_v6 (W0 m ρ c))
private theorem W12_v7 : W12 m ρ c (Proc.devRef .tc main_v7)
    = (extractStridedSlice S128x128 ![128, 0] (A8 m c) slices_S256x128_S128x128_128_0 : Vec Ideal S128x128 .f32) :=
  (W12_eq_W1 m ρ c main_v7 (by decide) (by decide) (by decide) (by decide) (by decide) (by decide) (by decide) (by decide) (by decide) (by decide) (by decide)).trans (h0_v7 (W0 m ρ c))
private theorem W12_v8 : W12 m ρ c (Proc.devRef .tc main_v8)
    = (shapeCast S1x128 (A9 m c) shapeCasts_S128_S1x128 : Vec Ideal S1x128 .f32) :=
  (W12_eq_W1 m ρ c main_v8 (by decide) (by decide) (by decide) (by decide) (by decide) (by decide) (by decide) (by decide) (by decide) (by decide) (by decide)).trans (h0_v8 (W0 m ρ c))
private theorem W12_v9 : W12 m ρ c (Proc.devRef .tc main_v9)
    = (shapeCast S1x1 (A11 m c) shapeCasts_S1_S1x1 : Vec Ideal S1x1 .f32) :=
  (W12_eq_W1 m ρ c main_v9 (by decide) (by decide) (by decide) (by decide) (by decide) (by decide) (by decide) (by decide) (by decide) (by decide) (by decide)).trans (h0_v9 (W0 m ρ c))

/-- The second weight is an input of region 4 and nothing else touches it: at region 4's entry it is as launched. -/
private theorem W12_arg10 : W12 m ρ c (Proc.devRef .tc main_arg10) = A10 m c :=
  calc W12 m ρ c (Proc.devRef .tc main_arg10)
    _ = W13 m ρ c (Proc.devRef .tc main_arg10) :=
        ((W13_arr m ρ c 5).trans (((dat4 (V12 m ρ) c).arrAt_in 5 rfl _).trans (A_eq4 (V12 m ρ) c 5))).symm
    _ = W14 m ρ c (Proc.devRef .tc main_arg10) := (keep5 _ main_arg10 (by decide)).symm
    _ = A10 m c := W14_main_arg10 m ρ c

/-! ### Region 4, and the last reshape -/

/-- Region 4's column of scores is the other program's, before its last reshape. -/
private theorem W13_v28 (h : InRange m c) :
    W13 m ρ c (Proc.devRef .tc main_v28) = Cert.ReferenceIdeal.Read.val_main_v74 (F := Ideal) (A0 m c) (A1 m c) (A2 m c) (A3 m c) (A4 m c) (A5 m c) (A6 m c) (A7 m c) (A8 m c) (A9 m c) (A10 m c) (A11 m c) := by
  have e : W13 m ρ c (Proc.devRef .tc main_v28)
      = (Cert.GNN.clsFn (L := 200000) (W12 m ρ c (Proc.devRef .tc main_v26)) (W12 m ρ c (Proc.devRef .tc main_v27)) (W12 m ρ c (Proc.devRef .tc main_v6))
          (W12 m ρ c (Proc.devRef .tc main_v7)) (W12 m ρ c (Proc.devRef .tc main_v8)) (W12 m ρ c (Proc.devRef .tc main_arg10)) (W12 m ρ c (Proc.devRef .tc main_v9)) : Vec Ideal S200000x1 .f32) :=
    (W13_arr m ρ c 7).trans (Region4.arr (V12 m ρ) c)
  rw [e, W12_v26 m ρ c h, W12_v27 m ρ c h, W12_v6, W12_v7, W12_v8, W12_arg10, W12_v9]
  unfold Cert.ReferenceIdeal.Read.val_main_v74 Cert.ReferenceIdeal.Read.val_main_v71 Cert.ReferenceIdeal.Read.val_main_v70 Cert.ReferenceIdeal.Read.val_main_v69 Cert.ReferenceIdeal.Read.val_main_v66 Cert.ReferenceIdeal.Read.val_main_v65
  exact (Cert.ReferenceIdeal.Stages.cls_stage _ _ (A8 m c) (A9 m c) (A10 m c) (A11 m c)
    (extractStridedSlice S128x128 ![0, 0] (A8 m c) slices_S256x128_S128x128_0_0) (extractStridedSlice S128x128 ![128, 0] (A8 m c) slices_S256x128_S128x128_128_0)
    (shapeCast S1x128 (A9 m c) shapeCasts_S128_S1x128) (shapeCast S1x1 (A11 m c) shapeCasts_S1_S1x1)
    (fun k q => slice2_axis0_apply 0 (A8 m c) _ k q ⟨k.val, by omega⟩ (Nat.zero_add _).symm)
    (fun k q => slice2_axis0_apply 128 (A8 m c) _ k q ⟨128 + k.val, by omega⟩ rfl)
    (fun q => shapeCast_a_1a_apply (A9 m c) _ 0 q)
    (shapeCast_a_1a_apply (A11 m c) _ 0 0)).symm

/-- The last reshape, from any contents. -/
private theorem h5_v29 (V : Valuation τ sig (Elt Ideal)) : StableHlo.after hostOps5 V (Proc.devRef .tc main_v29)
    = (shapeCast S200000 (V (Proc.devRef .tc main_v28) : Vec Ideal S200000x1 .f32) shapeCasts_S200000x1_S200000 : Vec Ideal S200000 .f32) := by
  after_results
  rfl

/-- The scores, at the last boundary. -/
theorem scores (h : InRange m c) :
    W14 m ρ c (Proc.devRef .tc main_v29) = Cert.ReferenceIdeal.Read.val_main_v75 (F := Ideal) (A0 m c) (A1 m c) (A2 m c) (A3 m c) (A4 m c) (A5 m c) (A6 m c) (A7 m c) (A8 m c) (A9 m c) (A10 m c) (A11 m c) := by
  have e : W14 m ρ c (Proc.devRef .tc main_v29)
      = (shapeCast S200000 (W13 m ρ c (Proc.devRef .tc main_v28) : Vec Ideal S200000x1 .f32) shapeCasts_S200000x1_S200000 : Vec Ideal S200000 .f32) :=
    h5_v29 (W13 m ρ c)
  rw [e, W13_v28 m ρ c h]
  rfl

end Cert.KernelIdeal.Chain

end
-- ==== Proof.lean ====
/-
  The kernel program runs a two-layer edge-conditioned graph convolution and an edge classifier as five tiled regions with host
  gathers and scatter-adds between them; the reference computes the same network with whole-array operations. At the ideal
  instance the two agree, index by index, on every input whose float entries are finite and whose gather indices (the edges'
  source row, the labelled edges' two endpoint rows) name rows of the 50000-row node table:

  * on such inputs the kernel program's filled take fills nothing, so it is the reference's plain gather;
  * each region's output array is a row-wise function of its input arrays (an edge's message, a node's update, a labelled
    edge's score), and the reference's matching stretch of whole-array operations is the same row-wise function — the
    matrix products are sums over the contracted axis on both sides, and the classifier's 256-wide product is the sum of
    the two 128-wide products the kernel forms with the weight's two halves;
  * the scatter-adds are the same operation applied to equal operands.

  So both results (the node features after the second layer, the edge scores) are equal. The idealization rewrote nothing, so
  `preserves` has nothing to state. The three frames are the programs' runs with the results dropped.
-/
import proofs.«405423_j3315714752591_1_alg».proof.Defs
import proofs.«405423_j3315714752591_1_alg».proof.Proof.Gen.Kernel
import proofs.«405423_j3315714752591_1_alg».proof.Proof.Gen.Kernel.Skeleton
import proofs.«405423_j3315714752591_1_alg».proof.Proof.Gen.Kernel.Launch
import proofs.«405423_j3315714752591_1_alg».proof.Proof.Gen.Kernel.Points
import proofs.«405423_j3315714752591_1_alg».proof.Proof.Gen.Kernel.Frame
import proofs.«405423_j3315714752591_1_alg».proof.Proof.Gen.KernelIdeal
import proofs.«405423_j3315714752591_1_alg».proof.Proof.Gen.KernelIdeal.Skeleton
import proofs.«405423_j3315714752591_1_alg».proof.Proof.Gen.KernelIdeal.Launch
import proofs.«405423_j3315714752591_1_alg».proof.Proof.Gen.KernelIdeal.Points
import proofs.«405423_j3315714752591_1_alg».proof.Proof.Gen.KernelIdeal.Frame
import proofs.«405423_j3315714752591_1_alg».proof.Proof.Gen.ReferenceIdeal
import proofs.«405423_j3315714752591_1_alg».proof.Proof.Gen.Pre_finite_inputs
import proofs.«405423_j3315714752591_1_alg».proof.Proof.Gen.ReferenceIdeal.Run
import proofs.«405423_j3315714752591_1_alg».proof.Proof.Gen.ReferenceIdeal.Read
import proofs.«405423_j3315714752591_1_alg».proof.Proof.KernelResults
import proofs.«405423_j3315714752591_1_alg».proof.Proof.RangeOfPre
import proofs.«405423_j3315714752591_1_alg».proof.Proof.Chain3
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the edge scores and the node features at the reference's stage functions of the (agreeing) arguments. -/
theorem algebraic : Cert.algebraic_KernelIdeal_ReferenceIdeal := by
  intro m ρ m' ρ' hpre hagree
  refine ⟨fun c => Cert.ReferenceIdeal.Read.val_main_v75 (F := Ideal) (Cert.KernelIdeal.Chain.A0 m c) (Cert.KernelIdeal.Chain.A1 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c) (Cert.KernelIdeal.Chain.A10 m c) (Cert.KernelIdeal.Chain.A11 m c),
    fun c => Cert.ReferenceIdeal.Read.val_main_v46 (F := Ideal) (Cert.KernelIdeal.Chain.A0 m c) (Cert.KernelIdeal.Chain.A1 m c) (Cert.KernelIdeal.Chain.A2 m c) (Cert.KernelIdeal.Chain.A4 m c) (Cert.KernelIdeal.Chain.A5 m c) (Cert.KernelIdeal.Chain.A6 m c) (Cert.KernelIdeal.Chain.A7 m c), ?_, ?_⟩
  · exact (θ_run Cert.KernelIdeal.defs _ _).mono (fun r h c =>
      ⟨(h c).1.trans (Cert.KernelIdeal.Chain.scores m ρ c (Cert.KernelIdeal.Chain.inRange_of_pre m hpre c)),
       (h c).2.1.trans (Cert.KernelIdeal.Chain.nodes_final m ρ c (Cert.KernelIdeal.Chain.inRange_of_pre m hpre c)),
       (h c).2.2⟩) (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11⟩ := hagree c
      rw [Cert.ReferenceIdeal.Read.val_main_v75_eq, h0, h1, h2, h3, h4, h5, h6, h7, h8, h9, h10, h11]
    · obtain ⟨h0, h1, h2, h3, h4, h5, h6, h7, h8, h9, h10, h11⟩ := hagree c
      rw [Cert.ReferenceIdeal.Read.val_main_v46_eq, h0, h1, h2, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
